-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x256x256 : Shape := ⟨3, ![256, 256, 256]⟩
abbrev S_ : Shape := ⟨0, ![]⟩

class Facts : Prop where
  bcast_S_S256x256x256 : S_.BroadcastsInDim S256x256x256 (![] : Fin 0 → Fin S256x256x256.rank)
  reducesTo_S256x256x256_S_d0_1_2 : S256x256x256.ReducesTo [0, 1, 2] S_
  h_S_ : 0 < S_.numel

variable [Facts]

def fn_part1 {F : FTy → Type} [FloatOps F] (main_v12 : IVec S_ 1) (main_v14 : IVec S256x256x256 1) (main_v16 : IVec S256x256x256 1) : IVec S_ 1 :=
  let main_v17 : IVec S256x256x256 1 := andi main_v14 main_v16
  let main_c_5 : IVec S_ 1 := constantI S_ 1 1#1
  let main_v18 : IVec S_ 1 := (fun x v => Host.reduce IntOp.andi x v reducesTo_S256x256x256_S_d0_1_2 h_S_) main_v17 main_c_5
  let main_v19 : IVec S_ 1 := andi main_v12 main_v18
  main_v19

def fn {F : FTy → Type} [FloatOps F] (main_arg0 : FVec F S256x256x256 .f32) (main_arg1 : IVec S256x256x256 32) : IVec S_ 1 :=
  let main_v0 : FVec F S256x256x256 .f32 := Host.roundeven main_arg0
  let main_v1 : IVec S256x256x256 32 := fptosi 32 main_v0
  let main_v2 : FVec F S256x256x256 .f32 := Host.absf main_arg0
  let main_cst : FVec F S_ .f32 := constant S_ .f32 0x7F800000#32
  let main_v3 : FVec F S256x256x256 .f32 := broadcastInDim S256x256x256 ![] bcast_S_S256x256x256 main_cst
  let main_v4 : IVec S256x256x256 1 := cmpf .olt main_v2 main_v3
  let main_c : IVec S_ 1 := constantI S_ 1 1#1
  let main_v5 : IVec S_ 1 := (fun x v => Host.reduce IntOp.andi x v reducesTo_S256x256x256_S_d0_1_2 h_S_) main_v4 main_c
  let main_c_0 : IVec S_ 32 := constantI S_ 32 0#32
  let main_v6 : IVec S256x256x256 32 := broadcastInDim S256x256x256 ![] bcast_S_S256x256x256 main_c_0
  let main_v7 : IVec S256x256x256 1 := cmpi .sge main_v1 main_v6
  let main_c_1 : IVec S_ 32 := constantI S_ 32 40#32
  let main_v8 : IVec S256x256x256 32 := broadcastInDim S256x256x256 ![] bcast_S_S256x256x256 main_c_1
  let main_v9 : IVec S256x256x256 1 := cmpi .sle main_v1 main_v8
  let main_v10 : IVec S256x256x256 1 := andi main_v7 main_v9
  let main_c_2 : IVec S_ 1 := constantI S_ 1 1#1
  let main_v11 : IVec S_ 1 := (fun x v => Host.reduce IntOp.andi x v reducesTo_S256x256x256_S_d0_1_2 h_S_) main_v10 main_c_2
  let main_v12 : IVec S_ 1 := andi main_v5 main_v11
  let main_c_3 : IVec S_ 32 := constantI S_ 32 0#32
  let main_v13 : IVec S256x256x256 32 := broadcastInDim S256x256x256 ![] bcast_S_S256x256x256 main_c_3
  let main_v14 : IVec S256x256x256 1 := cmpi .sge main_arg1 main_v13
  let main_c_4 : IVec S_ 32 := constantI S_ 32 25#32
  let main_v15 : IVec S256x256x256 32 := broadcastInDim S256x256x256 ![] bcast_S_S256x256x256 main_c_4
  let main_v16 : IVec S256x256x256 1 := cmpi .sle main_arg1 main_v15
  fn_part1 (F := F) main_v12 main_v14 main_v16
-- ==== Kernel.lean ====
abbrev S256x256x256 : Shape := ⟨3, ![256, 256, 256]⟩
abbrev S16777216 : Shape := ⟨1, ![16777216]⟩
abbrev S131072x128 : Shape := ⟨2, ![131072, 128]⟩
abbrev S2x41x26 : Shape := ⟨3, ![2, 41, 26]⟩
abbrev S2048x128 : Shape := ⟨2, ![2048, 128]⟩
abbrev S1x41x26 : Shape := ⟨3, ![1, 41, 26]⟩
abbrev S41x1x1 : Shape := ⟨3, ![41, 1, 1]⟩
abbrev S26x1x1 : Shape := ⟨3, ![26, 1, 1]⟩
abbrev S1x2048x128 : Shape := ⟨3, ![1, 2048, 128]⟩
abbrev S41x2048x128 : Shape := ⟨3, ![41, 2048, 128]⟩
abbrev S26x2048x128 : Shape := ⟨3, ![26, 2048, 128]⟩
abbrev S41x262144 : Shape := ⟨2, ![41, 262144]⟩
abbrev S26x262144 : Shape := ⟨2, ![26, 262144]⟩
abbrev S41x26 : Shape := ⟨2, ![41, 26]⟩
abbrev S_ : Shape := ⟨0, ![]⟩
abbrev S41x25 : Shape := ⟨2, ![41, 25]⟩
abbrev S25 : Shape := ⟨1, ![25]⟩
abbrev S41 : Shape := ⟨1, ![41]⟩
abbrev S41x1 : Shape := ⟨2, ![41, 1]⟩
abbrev S1x25 : Shape := ⟨2, ![1, 25]⟩

abbrev nBuf : Space → Nat
  | .hbm => 60
  | .vmem => 6
  | .smem => 0
  | _ => 0

abbrev bufTy : (tb : Table) → Fin (tcTables nBuf tb) → BufTy
  | .hbm, ⟨0, _⟩ => ⟨S256x256x256, .f32⟩
  | .hbm, ⟨1, _⟩ => ⟨S256x256x256, .i32⟩
  | .hbm, ⟨2, _⟩ => ⟨S16777216, .f32⟩
  | .hbm, ⟨3, _⟩ => ⟨S16777216, .i32⟩
  | .hbm, ⟨4, _⟩ => ⟨S131072x128, .f32⟩
  | .hbm, ⟨5, _⟩ => ⟨S131072x128, .i32⟩
  | .hbm, ⟨6, _⟩ => ⟨S2x41x26, .f32⟩
  | .hbm, ⟨7, _⟩ => ⟨S_, .f32⟩
  | .hbm, ⟨8, _⟩ => ⟨S41x26, .f32⟩
  | .hbm, ⟨9, _⟩ => ⟨S41x25, .f32⟩
  | .hbm, ⟨10, _⟩ => ⟨S_, .f32⟩
  | .hbm, ⟨11, _⟩ => ⟨S25, .f32⟩
  | .hbm, ⟨12, _⟩ => ⟨S_, .f32⟩
  | .hbm, ⟨13, _⟩ => ⟨S25, .f32⟩
  | .hbm, ⟨14, _⟩ => ⟨S25, .i1⟩
  | .hbm, ⟨15, _⟩ => ⟨S25, .i32⟩
  | .hbm, ⟨16, _⟩ => ⟨S_, .i32⟩
  | .hbm, ⟨17, _⟩ => ⟨S_, .i32⟩
  | .hbm, ⟨18, _⟩ => ⟨S41x25, .f32⟩
  | .hbm, ⟨19, _⟩ => ⟨S_, .f32⟩
  | .hbm, ⟨20, _⟩ => ⟨S41x25, .f32⟩
  | .hbm, ⟨21, _⟩ => ⟨S41x25, .i1⟩
  | .hbm, ⟨22, _⟩ => ⟨S_, .f32⟩
  | .hbm, ⟨23, _⟩ => ⟨S41, .f32⟩
  | .hbm, ⟨24, _⟩ => ⟨S41x1, .f32⟩
  | .hbm, ⟨25, _⟩ => ⟨S41x25, .f32⟩
  | .hbm, ⟨26, _⟩ => ⟨S41x25, .f32⟩
  | .hbm, ⟨27, _⟩ => ⟨S41x25, .f32⟩
  | .hbm, ⟨28, _⟩ => ⟨S_, .f32⟩
  | .hbm, ⟨29, _⟩ => ⟨S25, .f32⟩
  | .hbm, ⟨30, _⟩ => ⟨S_, .f32⟩
  | .hbm, ⟨31, _⟩ => ⟨S25, .f32⟩
  | .hbm, ⟨32, _⟩ => ⟨S25, .f32⟩
  | .hbm, ⟨33, _⟩ => ⟨S25, .f32⟩
  | .hbm, ⟨34, _⟩ => ⟨S_, .f32⟩
  | .hbm, ⟨35, _⟩ => ⟨S25, .f32⟩
  | .hbm, ⟨36, _⟩ => ⟨S25, .f32⟩
  | .hbm, ⟨37, _⟩ => ⟨S25, .f32⟩
  | .hbm, ⟨38, _⟩ => ⟨S_, .f32⟩
  | .hbm, ⟨39, _⟩ => ⟨S_, .f32⟩
  | .hbm, ⟨40, _⟩ => ⟨S25, .f32⟩
  | .hbm, ⟨41, _⟩ => ⟨S25, .f32⟩
  | .hbm, ⟨42, _⟩ => ⟨S_, .f32⟩
  | .hbm, ⟨43, _⟩ => ⟨S_, .f32⟩
  | .hbm, ⟨44, _⟩ => ⟨S1x25, .i1⟩
  | .hbm, ⟨45, _⟩ => ⟨S41x25, .i1⟩
  | .hbm, ⟨46, _⟩ => ⟨S41x25, .i1⟩
  | .hbm, ⟨47, _⟩ => ⟨S_, .i1⟩
  | .hbm, ⟨48, _⟩ => ⟨S41, .i1⟩
  | .hbm, ⟨49, _⟩ => ⟨S_, .f32⟩
  | .hbm, ⟨50, _⟩ => ⟨S41, .f32⟩
  | .hbm, ⟨51, _⟩ => ⟨S41, .i1⟩
  | .hbm, ⟨52, _⟩ => ⟨S41, .i1⟩
  | .hbm, ⟨53, _⟩ => ⟨S41, .i1⟩
  | .hbm, ⟨54, _⟩ => ⟨S41, .i32⟩
  | .hbm, ⟨55, _⟩ => ⟨S_, .i32⟩
  | .hbm, ⟨56, _⟩ => ⟨S_, .i32⟩
  | .hbm, ⟨57, _⟩ => ⟨S_, .i32⟩
  | .hbm, ⟨58, _⟩ => ⟨S_, .f32⟩
  | .hbm, ⟨59, _⟩ => ⟨S_, .f32⟩
  | .local _ .vmem, ⟨0, _⟩ => ⟨S2048x128, .f32⟩
  | .local _ .vmem, ⟨1, _⟩ => ⟨S2048x128, .f32⟩
  | .local _ .vmem, ⟨2, _⟩ => ⟨S2048x128, .i32⟩
  | .local _ .vmem, ⟨3, _⟩ => ⟨S2048x128, .i32⟩
  | .local _ .vmem, ⟨4, _⟩ => ⟨S1x41x26, .f32⟩
  | .local _ .vmem, ⟨5, _⟩ => ⟨S1x41x26, .f32⟩
  | _, _ => ⟨S256x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_7 : Ref sig .tc := ⟨.hbm, 38, rfl⟩
abbrev main_call0_v0 : Ref sig .tc := ⟨.hbm, 39, rfl⟩
abbrev main_call0_v1 : Ref sig .tc := ⟨.hbm, 40, rfl⟩
abbrev main_v27 : Ref sig .tc := ⟨.hbm, 41, rfl⟩
abbrev main_cst_8 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_c_9 : Ref sig .tc := ⟨.hbm, 47, rfl⟩
abbrev main_v32 : Ref sig .tc := ⟨.hbm, 48, rfl⟩
abbrev main_cst_10 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_c_11 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x41x26 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S256x256x256_S16777216 : S256x256x256.ShapeCasts S16777216
  shapeCasts_S16777216_S131072x128 : S16777216.ShapeCasts S131072x128
  inb_S1x41x26_S1x41x26_0_0_0 : ∀ a, (![0, 0, 0] : Fin 3 → Nat) a + S1x41x26.size a ≤ S1x41x26.size a
  h_S1x41x26 : 0 < S1x41x26.numel
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  iota_S41x1x1_d0_w32 : S41x1x1.Iotas .tc 32 [0]
  iota_S26x1x1_d0_w32 : S26x1x1.Iotas .tc 32 [0]
  shapeCasts_S2048x128_S1x2048x128 : S2048x128.ShapeCasts S1x2048x128
  broadcasts_S1x2048x128_S41x2048x128 : S1x2048x128.Broadcasts S41x2048x128
  broadcasts_S41x1x1_S41x2048x128 : S41x1x1.Broadcasts S41x2048x128
  natLt_1_32 : 1 < 32
  bitsLt_bf16_f32 : FTy.bits .bf16 < FTy.bits .f32
  broadcasts_S1x2048x128_S26x2048x128 : S1x2048x128.Broadcasts S26x2048x128
  broadcasts_S26x1x1_S26x2048x128 : S26x1x1.Broadcasts S26x2048x128
  shapeCasts_S41x2048x128_S41x262144 : S41x2048x128.ShapeCasts S41x262144
  shapeCasts_S26x2048x128_S26x262144 : S26x2048x128.ShapeCasts S26x262144
  shapeCasts_S1x41x26_S1x41x26 : S1x41x26.ShapeCasts S1x41x26
  shapeCasts_S41x26_S1x41x26 : S41x26.ShapeCasts S1x41x26
  reducesTo_S2x41x26_S41x26_d0 : S2x41x26.ReducesTo [0] S41x26
  h_S_ : 0 < S_.numel
  slices_S41x26_S41x25_0_1 : S41x26.Slices ![0, 1] S41x25
  reducesTo_S41x25_S25_d0 : S41x25.ReducesTo [0] S25
  bcast_S_S25 : S_.BroadcastsInDim S25 (![] : Fin 0 → Fin S25.rank)
  reducesTo_S25_S_d0 : S25.ReducesTo [0] S_
  bcast_S_S41x25 : S_.BroadcastsInDim S41x25 (![] : Fin 0 → Fin S41x25.rank)
  reducesTo_S41x26_S41_d1 : S41x26.ReducesTo [1] S41
  bcast_S41_S41x1_0 : S41.BroadcastsInDim S41x1 (![0] : Fin 1 → Fin S41x1.rank)
  bcast_S41x1_S41x25_0_1 : S41x1.BroadcastsInDim S41x25 (![0, 1] : Fin 2 → Fin S41x25.rank)
  bcast_S25_S1x25_1 : S25.BroadcastsInDim S1x25 (![1] : Fin 1 → Fin S1x25.rank)
  bcast_S1x25_S41x25_0_1 : S1x25.BroadcastsInDim S41x25 (![0, 1] : Fin 2 → Fin S41x25.rank)
  reducesTo_S41x25_S41_d1 : S41x25.ReducesTo [1] S41
  bcast_S_S41 : S_.BroadcastsInDim S41 (![] : Fin 0 → Fin S41.rank)
  reducesTo_S41_S_d0 : S41.ReducesTo [0] S_
  dot_S41x262144_S26x262144_S41x26_1_1_0_0_n_n_wf : DotDims.WF S41x262144 S26x262144 S41x26 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S131072x128.size a
  hwx0_0 : ∀ i : grid0.Coords, EltTy.bits .f32 = 32 ∨ (Rect.block (s := S131072x128) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S131072x128.size a
  hwx0_1 : ∀ i : grid0.Coords, EltTy.bits .i32 = 32 ∨ (Rect.block (s := S131072x128) S2048x128.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x41x26.size a ≤ S2x41x26.size a
  hwx0_2 : ∀ i : grid0.Coords, EltTy.bits .f32 = 32 ∨ (Rect.block (s := S2x41x26) S1x41x26.size (cc0_transform_2 i) (hinb0_2 i)).WholeWords (EltTy.packing .f32)

variable [Facts₀]

def dot_S41x262144_S26x262144_S41x26_1_1_0_0_n_n : DotDims S41x262144 S26x262144 S41x26 where
  lhsContracting := [1]
  rhsContracting := [1]
  lhsNonContracting := [0]
  rhsNonContracting := [0]
  lhsBatch := []
  rhsBatch := []
  wf := dot_S41x262144_S26x262144_S41x26_1_1_0_0_n_n_wf

abbrev win0_0 : Pipeline.Window sig grid0 :=
  Pipeline.Window.ofSpec (Memref.whole main_v2) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x41x26.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S256x256x256 : Shape := ⟨3, ![256, 256, 256]⟩
abbrev S_ : Shape := ⟨0, ![]⟩
abbrev S16777216 : Shape := ⟨1, ![16777216]⟩
abbrev S1066 : Shape := ⟨1, ![1066]⟩
abbrev S16777216x1 : Shape := ⟨2, ![16777216, 1]⟩
abbrev S41x26 : Shape := ⟨2, ![41, 26]⟩
abbrev S41x25 : Shape := ⟨2, ![41, 25]⟩
abbrev S25 : Shape := ⟨1, ![25]⟩
abbrev S41 : Shape := ⟨1, ![41]⟩
abbrev S41x1 : Shape := ⟨2, ![41, 1]⟩
abbrev S1x25 : Shape := ⟨2, ![1, 25]⟩

abbrev nBuf : Space → Nat
  | .hbm => 74
  | .vmem => 0
  | .smem => 0
  | _ => 0

abbrev bufTy : (tb : Table) → Fin (tcTables nBuf tb) → BufTy
  | .hbm, ⟨0, _⟩ => ⟨S256x256x256, .f32⟩
  | .hbm, ⟨1, _⟩ => ⟨S256x256x256, .i32⟩
  | .hbm, ⟨2, _⟩ => ⟨S256x256x256, .f32⟩
  | .hbm, ⟨3, _⟩ => ⟨S256x256x256, .i32⟩
  | .hbm, ⟨4, _⟩ => ⟨S_, .i32⟩
  | .hbm, ⟨5, _⟩ => ⟨S256x256x256, .i32⟩
  | .hbm, ⟨6, _⟩ => ⟨S256x256x256, .i32⟩
  | .hbm, ⟨7, _⟩ => ⟨S256x256x256, .i32⟩
  | .hbm, ⟨8, _⟩ => ⟨S16777216, .i32⟩
  | .hbm, ⟨9, _⟩ => ⟨S_, .f32⟩
  | .hbm, ⟨10, _⟩ => ⟨S1066, .f32⟩
  | .hbm, ⟨11, _⟩ => ⟨S_, .i32⟩
  | .hbm, ⟨12, _⟩ => ⟨S16777216, .i32⟩
  | .hbm, ⟨13, _⟩ => ⟨S16777216, .i1⟩
  | .hbm, ⟨14, _⟩ => ⟨S_, .i32⟩
  | .hbm, ⟨15, _⟩ => ⟨S16777216, .i32⟩
  | .hbm, ⟨16, _⟩ => ⟨S16777216, .i32⟩
  | .hbm, ⟨17, _⟩ => ⟨S16777216, .i32⟩
  | .hbm, ⟨18, _⟩ => ⟨S16777216x1, .i32⟩
  | .hbm, ⟨19, _⟩ => ⟨S_, .f32⟩
  | .hbm, ⟨20, _⟩ => ⟨S16777216, .f32⟩
  | .hbm, ⟨21, _⟩ => ⟨S1066, .f32⟩
  | .hbm, ⟨22, _⟩ => ⟨S41x26, .f32⟩
  | .hbm, ⟨23, _⟩ => ⟨S41x25, .f32⟩
  | .hbm, ⟨24, _⟩ => ⟨S_, .f32⟩
  | .hbm, ⟨25, _⟩ => ⟨S25, .f32⟩
  | .hbm, ⟨26, _⟩ => ⟨S_, .f32⟩
  | .hbm, ⟨27, _⟩ => ⟨S25, .f32⟩
  | .hbm, ⟨28, _⟩ => ⟨S25, .i1⟩
  | .hbm, ⟨29, _⟩ => ⟨S25, .i32⟩
  | .hbm, ⟨30, _⟩ => ⟨S_, .i32⟩
  | .hbm, ⟨31, _⟩ => ⟨S_, .i32⟩
  | .hbm, ⟨32, _⟩ => ⟨S41x25, .f32⟩
  | .hbm, ⟨33, _⟩ => ⟨S_, .f32⟩
  | .hbm, ⟨34, _⟩ => ⟨S41x25, .f32⟩
  | .hbm, ⟨35, _⟩ => ⟨S41x25, .i1⟩
  | .hbm, ⟨36, _⟩ => ⟨S_, .f32⟩
  | .hbm, ⟨37, _⟩ => ⟨S41, .f32⟩
  | .hbm, ⟨38, _⟩ => ⟨S41x1, .f32⟩
  | .hbm, ⟨39, _⟩ => ⟨S41x25, .f32⟩
  | .hbm, ⟨40, _⟩ => ⟨S41x25, .f32⟩
  | .hbm, ⟨41, _⟩ => ⟨S41x25, .f32⟩
  | .hbm, ⟨42, _⟩ => ⟨S_, .f32⟩
  | .hbm, ⟨43, _⟩ => ⟨S25, .f32⟩
  | .hbm, ⟨44, _⟩ => ⟨S_, .f32⟩
  | .hbm, ⟨45, _⟩ => ⟨S25, .f32⟩
  | .hbm, ⟨46, _⟩ => ⟨S25, .f32⟩
  | .hbm, ⟨47, _⟩ => ⟨S25, .f32⟩
  | .hbm, ⟨48, _⟩ => ⟨S_, .f32⟩
  | .hbm, ⟨49, _⟩ => ⟨S25, .f32⟩
  | .hbm, ⟨50, _⟩ => ⟨S25, .f32⟩
  | .hbm, ⟨51, _⟩ => ⟨S25, .f32⟩
  | .hbm, ⟨52, _⟩ => ⟨S_, .f32⟩
  | .hbm, ⟨53, _⟩ => ⟨S_, .f32⟩
  | .hbm, ⟨54, _⟩ => ⟨S25, .f32⟩
  | .hbm, ⟨55, _⟩ => ⟨S25, .f32⟩
  | .hbm, ⟨56, _⟩ => ⟨S_, .f32⟩
  | .hbm, ⟨57, _⟩ => ⟨S_, .f32⟩
  | .hbm, ⟨58, _⟩ => ⟨S1x25, .i1⟩
  | .hbm, ⟨59, _⟩ => ⟨S41x25, .i1⟩
  | .hbm, ⟨60, _⟩ => ⟨S41x25, .i1⟩
  | .hbm, ⟨61, _⟩ => ⟨S_, .i1⟩
  | .hbm, ⟨62, _⟩ => ⟨S41, .i1⟩
  | .hbm, ⟨63, _⟩ => ⟨S_, .f32⟩
  | .hbm, ⟨64, _⟩ => ⟨S41, .f32⟩
  | .hbm, ⟨65, _⟩ => ⟨S41, .i1⟩
  | .hbm, ⟨66, _⟩ => ⟨S41, .i1⟩
  | .hbm, ⟨67, _⟩ => ⟨S41, .i1⟩
  | .hbm, ⟨68, _⟩ => ⟨S41, .i32⟩
  | .hbm, ⟨69, _⟩ => ⟨S_, .i32⟩
  | .hbm, ⟨70, _⟩ => ⟨S_, .i32⟩
  | .hbm, ⟨71, _⟩ => ⟨S_, .i32⟩
  | .hbm, ⟨72, _⟩ => ⟨S_, .f32⟩
  | .hbm, ⟨73, _⟩ => ⟨S_, .f32⟩
  | _, _ => ⟨S256x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_c_0 : Ref sig .tc := ⟨.hbm, 11, rfl⟩
abbrev main_v7 : Ref sig .tc := ⟨.hbm, 12, rfl⟩
abbrev main_v8 : Ref sig .tc := ⟨.hbm, 13, rfl⟩
abbrev main_c_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_c_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_8 : Ref sig .tc := ⟨.hbm, 42, rfl⟩
abbrev main_v30 : Ref sig .tc := ⟨.hbm, 43, rfl⟩
abbrev main_cst_9 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_10 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_11 : Ref sig .tc := ⟨.hbm, 52, rfl⟩
abbrev main_call1_v0 : Ref sig .tc := ⟨.hbm, 53, rfl⟩
abbrev main_call1_v1 : Ref sig .tc := ⟨.hbm, 54, rfl⟩
abbrev main_v37 : Ref sig .tc := ⟨.hbm, 55, rfl⟩
abbrev main_cst_12 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_c_13 : Ref sig .tc := ⟨.hbm, 61, rfl⟩
abbrev main_v42 : Ref sig .tc := ⟨.hbm, 62, rfl⟩
abbrev main_cst_14 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_c_15 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩

abbrev nD : Nat := 1
abbrev τ : Topo := Topo.v7x

variable {F : FTy → Type} [FloatOps F]

class Facts₀ : Prop where
  bcast_S_S256x256x256 : S_.BroadcastsInDim S256x256x256 (![] : Fin 0 → Fin S256x256x256.rank)
  shapeCasts_S256x256x256_S16777216 : S256x256x256.ShapeCasts S16777216
  bcast_S_S1066 : S_.BroadcastsInDim S1066 (![] : Fin 0 → Fin S1066.rank)
  bcast_S_S16777216 : S_.BroadcastsInDim S16777216 (![] : Fin 0 → Fin S16777216.rank)
  bcast_S16777216_S16777216x1_0 : S16777216.BroadcastsInDim S16777216x1 (![0] : Fin 1 → Fin S16777216x1.rank)
  shapeCasts_S1066_S41x26 : S1066.ShapeCasts S41x26
  slices_S41x26_S41x25_0_1 : S41x26.Slices ![0, 1] S41x25
  reducesTo_S41x25_S25_d0 : S41x25.ReducesTo [0] S25
  h_S_ : 0 < S_.numel
  bcast_S_S25 : S_.BroadcastsInDim S25 (![] : Fin 0 → Fin S25.rank)
  natLt_1_32 : 1 < 32
  reducesTo_S25_S_d0 : S25.ReducesTo [0] S_
  bcast_S_S41x25 : S_.BroadcastsInDim S41x25 (![] : Fin 0 → Fin S41x25.rank)
  reducesTo_S41x26_S41_d1 : S41x26.ReducesTo [1] S41
  bcast_S41_S41x1_0 : S41.BroadcastsInDim S41x1 (![0] : Fin 1 → Fin S41x1.rank)
  bcast_S41x1_S41x25_0_1 : S41x1.BroadcastsInDim S41x25 (![0, 1] : Fin 2 → Fin S41x25.rank)
  bcast_S25_S1x25_1 : S25.BroadcastsInDim S1x25 (![1] : Fin 1 → Fin S1x25.rank)
  bcast_S1x25_S41x25_0_1 : S1x25.BroadcastsInDim S41x25 (![0, 1] : Fin 2 → Fin S41x25.rank)
  reducesTo_S41x25_S41_d1 : S41x25.ReducesTo [1] S41
  bcast_S_S41 : S_.BroadcastsInDim S41 (![] : Fin 0 → Fin S41.rank)
  reducesTo_S41_S_d0 : S41.ReducesTo [0] S_
  scatter_S1066_S16777216x1_S16777216_n_0_0_1_wf : ScatterDims.WF S1066 S16777216x1 S16777216 [] [0] [0] 1

variable [Facts₀]

def scatter_S1066_S16777216x1_S16777216_n_0_0_1 : ScatterDims S1066 S16777216x1 S16777216 where
  updateWindowDims := []
  insertedWindowDims := [0]
  scatterDimsToOperandDims := [0]
  indexVectorDim := 1
  wf := scatter_S1066_S16777216x1_S16777216_n_0_0_1_wf

class Facts : Prop extends Facts₀ where

variable [Facts]
-- ==== Proof.LibTile.lean ====
/- Sums over a range cut into equal tiles. A sum over `Fin (m * n)` is the sum over the `m` tiles of the sums over the
   `n` places inside a tile, place `p` of tile `t` being `n * t + p`; and an accumulator that starts at zero plus the
   first tile's sum and adds one tile's sum per step ends at the whole sum. Stated over any additive commutative monoid,
   then at the literal sizes 20 tiles of 5000 in 100000. -/
import Mathlib.Algebra.BigOperators.Fin
import Mathlib.Algebra.BigOperators.Intervals
import Mathlib.Logic.Equiv.Fin.Basic

namespace Cert.Hand.LibTile

variable {M : Type*} [AddCommMonoid M]

/-- Place `p` of tile `t` lies inside the range. -/
theorem tile_lt {m n N : ℕ} (h : m * n = N) {t p : ℕ} (ht : t < m) (hp : p < n) : n * t + p < N := by
  subst h
  calc n * t + p < n * t + n := Nat.add_lt_add_left hp _
    _ = n * (t + 1) := (Nat.mul_succ n t).symm
    _ ≤ n * m := Nat.mul_le_mul_left n ht
    _ = m * n := Nat.mul_comm n m

/-- The whole sum is the sum over tiles of the sums inside each tile. -/
theorem sum_tiles {m n N : ℕ} (h : m * n = N) (f : Fin N → M) :
    ∑ t : Fin m, ∑ p : Fin n, f ⟨n * t.val + p.val, tile_lt h t.isLt p.isLt⟩ = ∑ r : Fin N, f r := by
  subst h
  rw [← Fintype.sum_prod_type (f := fun x : Fin m × Fin n => f ⟨n * x.1.val + x.2.val, tile_lt rfl x.1.isLt x.2.isLt⟩),
    ← Equiv.sum_comp finProdFinEquiv f]
  refine Finset.sum_congr rfl fun x _ => congrArg f (Fin.ext ?_)
  show n * x.1.val + x.2.val = x.2.val + n * x.1.val
  exact Nat.add_comm _ _

/-- An accumulator that is zero plus tile 0's sum after the first step and gains tile `k + 1`'s sum at step `k + 1`
    holds, after step `k`, the sum of the tiles up to `k`. -/
theorem acc_eq_sum_range {n : ℕ} (a : ℕ → M) (g : ℕ → Fin n → M) (m : ℕ)
    (h0 : a 0 = 0 + ∑ p : Fin n, g 0 p) (hs : ∀ k, k + 1 < m → a (k + 1) = a k + ∑ p : Fin n, g (k + 1) p) :
    ∀ k, k < m → a k = ∑ t ∈ Finset.range (k + 1), ∑ p : Fin n, g t p
  | 0, _ => by rw [h0, zero_add, Finset.sum_range_one]
  | k + 1, hk => by
    rw [hs k hk, acc_eq_sum_range a g m h0 hs k (Nat.lt_of_succ_lt hk), Finset.sum_range_succ _ (k + 1)]

/-- So after the last of `m` steps it holds the sum over all tiles, -/
theorem acc_last_eq_sum_fin {n : ℕ} (a : ℕ → M) (g : ℕ → Fin n → M) (m : ℕ) (hm : 0 < m)
    (h0 : a 0 = 0 + ∑ p : Fin n, g 0 p) (hs : ∀ k, k + 1 < m → a (k + 1) = a k + ∑ p : Fin n, g (k + 1) p) :
    a (m - 1) = ∑ t : Fin m, ∑ p : Fin n, g t.val p := by
  rw [acc_eq_sum_range a g m h0 hs (m - 1) (Nat.sub_lt hm Nat.one_pos), Nat.sub_add_cancel hm,
    Finset.sum_range fun t => ∑ p : Fin n, g t p]

/-- and when tile `t`'s place `p` is entry `n * t + p` of a function on the whole range, the whole sum of that
    function. -/
theorem acc_last_eq_sum {m n N : ℕ} (h : m * n = N) (hm : 0 < m) (f : Fin N → M) (a : ℕ → M) (g : ℕ → Fin n → M)
    (hg : ∀ (t : ℕ) (ht : t < m) (p : Fin n), g t p = f ⟨n * t + p.val, tile_lt h ht p.isLt⟩)
    (h0 : a 0 = 0 + ∑ p : Fin n, g 0 p) (hs : ∀ k, k + 1 < m → a (k + 1) = a k + ∑ p : Fin n, g (k + 1) p) :
    a (m - 1) = ∑ r : Fin N, f r := by
  rw [acc_last_eq_sum_fin a g m hm h0 hs, ← sum_tiles h f]
  exact Finset.sum_congr rfl fun t _ => Finset.sum_congr rfl fun p _ => hg t.val t.isLt p

/-! ## At 20 tiles of 5000 rows in 100000 -/

/-- Row `p` of block `t` is a row of the array. -/
theorem row_lt {t p : ℕ} (ht : t < 20) (hp : p < 5000) : 5000 * t + p < 100000 := tile_lt (m := 20) (n := 5000) rfl ht hp

/-- The sum over the 100000 rows is the sum over the 20 blocks of the sums over each block's 5000 rows. -/
theorem sum_blocks (f : Fin 100000 → M) :
    ∑ t : Fin 20, ∑ p : Fin 5000, f ⟨5000 * t.val + p.val, row_lt t.isLt p.isLt⟩ = ∑ r : Fin 100000, f r :=
  sum_tiles (m := 20) (n := 5000) rfl f

/-- An accumulator started at zero plus block 0's sum and fed one block's sum per step holds, after the twentieth step,
    the sum over all 100000 rows. -/
theorem acc_blocks (f : Fin 100000 → M) (a : ℕ → M) (g : ℕ → Fin 5000 → M)
    (hg : ∀ (t : ℕ) (ht : t < 20) (p : Fin 5000), g t p = f ⟨5000 * t + p.val, row_lt ht p.isLt⟩)
    (h0 : a 0 = 0 + ∑ p : Fin 5000, g 0 p) (hs : ∀ k, k + 1 < 20 → a (k + 1) = a k + ∑ p : Fin 5000, g (k + 1) p) :
    a 19 = ∑ r : Fin 100000, f r :=
  acc_last_eq_sum (m := 20) (n := 5000) rfl (by decide) f a g hg h0 hs

end Cert.Hand.LibTile
-- ==== Proof.Histogram.lean ====
/-
  The joint histogram of two label volumes and the instance Dice score computed from it, on the extended reals.

  A volume of 256 x 256 x 256 voxels carries two labels per voxel, each a 32-bit word: the predicted component id (the
  rounded prediction, converted to an integer) and the ground-truth id. `counts` is the 41 x 26 table whose entry (p, c)
  is the number of voxels with predicted id p and ground-truth id c, a sum of products of two indicators. `diceTail` is
  what both programs compute from that table: per ground-truth component its size, the predicted ids that touch it, the
  Dice quotient, summed over the components present and divided by the number of components present plus the number of
  predicted ids that touch no component.

  Voxel v of the volume, 0 <= v < 2^24, is the voxel at coordinates (v / 65536, v / 256 mod 256, v mod 256): the
  row-major order, which every reshape of the volume keeps.
-/
import Idealize.ShloMosaic.PureOps.Ideal
import Idealize.ShloMosaic.Lib.ValueIdx
import proofs.«424809_j90821378441236_2_alg».proof.Proof.LibTile

noncomputable section

open scoped BigOperators

namespace Cert.Histogram

open Idealize.ShloMosaic Idealize.ShloMosaic.ValueIdx

/-! ## Shapes -/

abbrev HVol : Shape := ⟨3, ![256, 256, 256]⟩
abbrev H2x41x26 : Shape := ⟨3, ![2, 41, 26]⟩
abbrev H41x26 : Shape := ⟨2, ![41, 26]⟩
abbrev H41x25 : Shape := ⟨2, ![41, 25]⟩
abbrev H25 : Shape := ⟨1, ![25]⟩
abbrev H41 : Shape := ⟨1, ![41]⟩
abbrev H41x1 : Shape := ⟨2, ![41, 1]⟩
abbrev H1x25 : Shape := ⟨2, ![1, 25]⟩
abbrev H0 : Shape := ⟨0, ![]⟩

theorem slices_41x26_41x25 : H41x26.Slices ![0, 1] H41x25 := by decide
theorem reduces_41x25_25 : H41x25.ReducesTo [0] H25 := by decide
theorem pos_H0 : 0 < H0.numel := by decide
theorem bcast_0_25 : H0.BroadcastsInDim H25 (![] : Fin 0 → Fin H25.rank) := by decide
theorem one_lt_32 : 1 < 32 := by decide
theorem reduces_25_0 : H25.ReducesTo [0] H0 := by decide
theorem bcast_0_41x25 : H0.BroadcastsInDim H41x25 (![] : Fin 0 → Fin H41x25.rank) := by decide
theorem reduces_41x26_41 : H41x26.ReducesTo [1] H41 := by decide
theorem bcast_41_41x1 : H41.BroadcastsInDim H41x1 (![0] : Fin 1 → Fin H41x1.rank) := by decide
theorem bcast_41x1_41x25 : H41x1.BroadcastsInDim H41x25 (![0, 1] : Fin 2 → Fin H41x25.rank) := by decide
theorem bcast_25_1x25 : H25.BroadcastsInDim H1x25 (![1] : Fin 1 → Fin H1x25.rank) := by decide
theorem bcast_1x25_41x25 : H1x25.BroadcastsInDim H41x25 (![0, 1] : Fin 2 → Fin H41x25.rank) := by decide
theorem reduces_41x25_41 : H41x25.ReducesTo [1] H41 := by decide
theorem bcast_0_41 : H0.BroadcastsInDim H41 (![] : Fin 0 → Fin H41.rank) := by decide
theorem reduces_41_0 : H41.ReducesTo [0] H0 := by decide
theorem reduces_2x41x26_41x26 : H2x41x26.ReducesTo [0] H41x26 := by decide

/-! ## Voxels and label words -/

/-- Voxel `v` in row-major order, by its three coordinates. -/
def voxel (v : Fin 16777216) : HVol.Idx :=
  ix3 (⟨v.val / 65536, by have := v.isLt; omega⟩ : Fin 256) (⟨v.val / 256 % 256, by omega⟩ : Fin 256)
    (⟨v.val % 256, by omega⟩ : Fin 256)

/-- The predicted component id of voxel `v`: the prediction rounded to the nearest integer, ties to even, as a word. -/
def labelWord (a0 : FVec Ideal HVol .f32) (v : Fin 16777216) : BitVec 32 :=
  fptosi 32 (Host.roundeven (F := Ideal) a0) (voxel v)

/-- The ground-truth component id of voxel `v`. -/
def gtWord (a1 : IVec HVol 32) (v : Fin 16777216) : BitVec 32 := a1 (voxel v)

/-- Every voxel's predicted id lies in 0 … 40 and its ground-truth id in 0 … 25 (the words read as signed integers). -/
def InRange (a0 : FVec Ideal HVol .f32) (a1 : IVec HVol 32) : Prop :=
  ∀ v : Fin 16777216, (0 ≤ (labelWord a0 v).toInt ∧ (labelWord a0 v).toInt ≤ 40)
    ∧ (0 ≤ (gtWord a1 v).toInt ∧ (gtWord a1 v).toInt ≤ 25)

/-! ## The joint histogram -/

/-- One where the word is the id `n`, zero elsewhere. -/
def ind (w : BitVec 32) (n : ℕ) : EReal := if w = BitVec.ofNat 32 n then 1 else 0

/-- What voxel `v` adds to entry (p, c) of the table: one when it carries both ids. -/
def hit (Lw Gw : Fin 16777216 → BitVec 32) (p c : ℕ) (v : Fin 16777216) : EReal := ind (Lw v) p * ind (Gw v) c

/-- The joint histogram: entry (p, c) counts the voxels with predicted id p and ground-truth id c. -/
def counts (Lw Gw : Fin 16777216 → BitVec 32) : H41x26.Idx → EReal :=
  fun i => ∑ v : Fin 16777216, hit Lw Gw (i 0).val (i 1).val v

/-- Voxel `k` of block `t` (64 blocks of 262144 voxels) is a voxel of the volume. -/
theorem block_lt {t k : ℕ} (ht : t < 64) (hk : k < 262144) : 262144 * t + k < 16777216 := by omega

/-- The two half tables the kernel keeps: half `h` sums, over its 32 blocks of 262144 voxels in turn, each block's hits. -/
def halfCounts (Lw Gw : Fin 16777216 → BitVec 32) : H2x41x26.Idx → EReal :=
  fun i => ∑ j : Fin 32, ∑ k : Fin 262144,
    hit Lw Gw (i 1).val (i 2).val ⟨262144 * (32 * (i 0).val + j.val) + k.val,
      block_lt (by have h0 : (i 0).val < 2 := (i 0).isLt; have := j.isLt; omega) k.isLt⟩

/-- The table is the sum of the two half tables. -/
theorem counts_eq_halves (Lw Gw : Fin 16777216 → BitVec 32) (p : Fin 41) (c : Fin 26) :
    counts Lw Gw (ix2 p c) = ∑ h : Fin 2, halfCounts Lw Gw (ix3 h p c) := by
  unfold counts halfCounts
  show ∑ v : Fin 16777216, hit Lw Gw p.val c.val v = _
  rw [← Cert.Hand.LibTile.sum_tiles (m := 64) (n := 262144) (N := 16777216) rfl (hit Lw Gw p.val c.val),
    ← Cert.Hand.LibTile.sum_tiles (m := 2) (n := 32) (N := 64) rfl
      (fun t : Fin 64 => ∑ k : Fin 262144, hit Lw Gw p.val c.val
        ⟨262144 * t.val + k.val, Cert.Hand.LibTile.tile_lt (m := 64) (n := 262144) rfl t.isLt k.isLt⟩)]

/-! ## From the table to the score -/

/-- The instance Dice score of a joint histogram, operation by operation as both programs spell it. -/
def diceTail (cnt : FVec Ideal H41x26 .f32) : FVec Ideal H0 .f32 :=
  let gtCols : FVec Ideal H41x25 .f32 := extractStridedSlice H41x25 ![0, 1] cnt slices_41x26_41x25
  let gtSizes : FVec Ideal H25 .f32 := Host.reduceAdd (F := Ideal) gtCols (constant (F := Ideal) H0 .f32 0x00000000#32) reduces_41x25_25 pos_H0
  let present : IVec H25 1 := cmpf (F := Ideal) .ogt gtSizes (broadcastInDim H25 ![] bcast_0_25 (constant (F := Ideal) H0 .f32 0x00000000#32))
  let numGt : IVec H0 32 := Host.reduce IntOp.addi (extui 32 present one_lt_32) (constantI H0 32 0#32) reduces_25_0 pos_H0
  let overlap : IVec H41x25 1 := cmpf (F := Ideal) .ogt gtCols (broadcastInDim H41x25 ![] bcast_0_41x25 (constant (F := Ideal) H0 .f32 0x00000000#32))
  let predSizes : FVec Ideal H41 .f32 := Host.reduceAdd (F := Ideal) cnt (constant (F := Ideal) H0 .f32 0x00000000#32) reduces_41x26_41 pos_H0
  let unionSize : FVec Ideal H25 .f32 := Host.reduceAdd (F := Ideal)
    (mulf (uitofp (F := Ideal) .f32 overlap) (broadcastInDim H41x25 ![0, 1] bcast_41x1_41x25 (broadcastInDim H41x1 ![0] bcast_41_41x1 predSizes)))
    (constant (F := Ideal) H0 .f32 0x00000000#32) reduces_41x25_25 pos_H0
  let dice : FVec Ideal H25 .f32 := Host.divf (F := Ideal)
    (mulf (broadcastInDim H25 ![] bcast_0_25 (constant (F := Ideal) H0 .f32 0x40000000#32)) gtSizes)
    (addf (addf unionSize gtSizes) (broadcastInDim H25 ![] bcast_0_25 (constant (F := Ideal) H0 .f32 0x3F800000#32)))
  let lesionDice : FVec Ideal H0 .f32 := Host.reduceAdd (F := Ideal)
    (select present dice (broadcastInDim H25 ![] bcast_0_25 (id (constant (F := Ideal) H0 .f32 0x00000000#32))))
    (constant (F := Ideal) H0 .f32 0x00000000#32) reduces_25_0 pos_H0
  let tpAny : IVec H41 1 := Host.reduce IntOp.ori
    (andi overlap (broadcastInDim H41x25 ![0, 1] bcast_1x25_41x25 (broadcastInDim H1x25 ![1] bcast_25_1x25 present)))
    (constantI H0 1 0#1) reduces_41x25_41 pos_H0
  let fp : IVec H0 32 := Host.reduce IntOp.addi
    (extui 32 (andi (cmpf (F := Ideal) .ogt predSizes (broadcastInDim H41 ![] bcast_0_41 (constant (F := Ideal) H0 .f32 0x00000000#32))) (noti tpAny)) one_lt_32)
    (constantI H0 32 0#32) reduces_41_0 pos_H0
  Host.divf (F := Ideal) lesionDice (sitofp (F := Ideal) .f32 (addi numGt fp))

end Cert.Histogram

end
-- ==== Proof.LibDotLastAxis.lean ====
/-
  Two matrix products read at an index, at the ideal values, for operands that both keep the contracted axis LAST
  (a product of a matrix with the transpose of another, as a linear layer `x · Wᵀ` is written):

  * the matrix unit's product of an [m, k] block with an [n, k] block into the zero accumulator, at (a, b), is
    `∑ c, A (a, c) · B (b, c)`;
  * the host's contraction of a stack [p, q, k] with an [n, k] matrix, at (b, s, o), is `∑ c, A (b, s, c) · B (o, c)`.

  Both are stated over the literal record of dimension numbers with its well-formedness fact `w` a variable, so they apply
  to a program's own record whatever name it gives that fact. No rounding and no order of summation is left at the ideal
  values: each is one finite sum over the contracted coordinate.
-/
import Idealize.ShloMosaic.PureOps.Ideal.Laws
import Idealize.ShloMosaic.Lib.ValueIdx

noncomputable section

open scoped BigOperators

namespace Idealize.ShloMosaic.LibDotLastAxis

open Idealize.ShloMosaic Idealize.ShloMosaic.ValueIdx

variable {m n k : Nat}

/-- The matrix unit's product of two blocks that both carry the contracted axis last, accumulated from zero: entry
    (a, b) is the sum over the contracted coordinate `c` of `A (a, c) · B (b, c)`. -/
theorem matmul_zero_apply {φ₁ φ₂ : FTy}
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (a : Fin m) (b : Fin n) :
    FloatOps.matmul (⟨[1], [1], [0], [0], [], [], w⟩ : DotDims ⟨2, ![m, k]⟩ ⟨2, ![n, k]⟩ ⟨2, ![m, n]⟩) prec A B
        (constant ⟨2, ![m, n]⟩ .f32 0x00000000#32) (ix2 a b)
      = ∑ c : Fin k, A (ix2 a c) * B (ix2 b c) := by
  rw [Ideal.matmul_constant_zero_apply,
    ← Equiv.sum_comp (contrEquiv1 (⟨[1], [1], [0], [0], [], [], w⟩ : DotDims ⟨2, ![m, k]⟩ ⟨2, ![n, k]⟩ ⟨2, ![m, n]⟩) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

variable {p q : Nat}

/-- The host's contraction of a stack of row vectors [p, q, k] with a matrix [n, k] over their last axes: entry
    (b, s, o) is the sum over the contracted coordinate `c` of `A (b, s, c) · B (o, c)`. -/
theorem dotGeneral_stack_apply {φ₁ φ₂ : FTy}
    (w : DotDims.WF ⟨3, ![p, q, k]⟩ ⟨2, ![n, k]⟩ ⟨3, ![p, q, n]⟩ [2] [1] [0, 1] [0] [] [])
    (prec : Option ContractPrecision) (A : FVec Ideal ⟨3, ![p, q, k]⟩ φ₁) (B : FVec Ideal ⟨2, ![n, k]⟩ φ₂)
    (b : Fin p) (s : Fin q) (o : Fin n) :
    Host.dotGeneral (⟨[2], [1], [0, 1], [0], [], [], w⟩ : DotDims ⟨3, ![p, q, k]⟩ ⟨2, ![n, k]⟩ ⟨3, ![p, q, n]⟩) prec A B (ix3 b s o)
      = ∑ c : Fin k, A (ix3 b s c) * B (ix2 o c) := by
  show FloatOps.dotGeneral _ prec _ A B (ix3 b s o) = _
  rw [Ideal.dotGeneral_apply,
    ← Equiv.sum_comp (contrEquiv1 (⟨[2], [1], [0, 1], [0], [], [], w⟩ : DotDims ⟨3, ![p, q, k]⟩ ⟨2, ![n, k]⟩ ⟨3, ![p, q, n]⟩) k rfl rfl).symm]
  refine Finset.sum_congr rfl fun c _ => ?_
  have c3 := contrEquiv1_symm_val
    (⟨[2], [1], [0, 1], [0], [], [], w⟩ : DotDims ⟨3, ![p, q, k]⟩ ⟨2, ![n, k]⟩ ⟨3, ![p, q, n]⟩) k rfl rfl c
  have l3 : (⟨[2], [1], [0, 1], [0], [], [], w⟩ : DotDims ⟨3, ![p, q, k]⟩ ⟨2, ![n, k]⟩ ⟨3, ![p, q, n]⟩).lhsIdx (ix3 b s o)
      ((contrEquiv1 _ k rfl rfl).symm c) = ix3 b s c := by
    funext ax; apply Fin.ext
    match ax with
    | ⟨0, _⟩ => simp [DotDims.lhsIdx]; rfl
    | ⟨1, _⟩ => simp [DotDims.lhsIdx]; rfl
    | ⟨2, _⟩ => simp [DotDims.lhsIdx]; exact c3
  have r3 : (⟨[2], [1], [0, 1], [0], [], [], w⟩ : DotDims ⟨3, ![p, q, k]⟩ ⟨2, ![n, k]⟩ ⟨3, ![p, q, n]⟩).rhsIdx (ix3 b s o)
      ((contrEquiv1 _ k rfl rfl).symm c) = ix2 o c := by
    funext ax; apply Fin.ext
    match ax with
    | ⟨0, _⟩ => simp [DotDims.rhsIdx]; rfl
    | ⟨1, _⟩ => simp [DotDims.rhsIdx]; exact c3
  rw [l3, r3]

end Idealize.ShloMosaic.LibDotLastAxis

end
-- ==== Proof.KernelBlock.lean ====
/-
  One grid point of the histogram kernel, read at an entry of its 41 x 26 block.

  The body rounds its 2048 x 128 block of predictions to integer ids, compares the ids and the ground-truth ids of the
  same block against the class numbers 0 … 40 and 0 … 25, and multiplies the two stacks of indicator rows on the matrix
  unit over the 262144 voxels of the block; the product is added to what the output block held. So at (p, c) the body
  adds the number of the block's voxels with predicted id p and ground-truth id c. Position k of the flattened block is
  row k / 128, lane k mod 128.
-/
import proofs.«424809_j90821378441236_2_alg».proof.Proof.Gen.KernelIdeal.Skeleton
import proofs.«424809_j90821378441236_2_alg».proof.Proof.Histogram
import proofs.«424809_j90821378441236_2_alg».proof.Proof.LibDotLastAxis
import Idealize.ShloMosaic.Lib.Pipeline.Value
import Idealize.ShloMosaic.Lib.ValueIdx
import Idealize.ShloMosaic.PureOps.Ideal.Laws

noncomputable section

open scoped BigOperators

namespace Cert.KernelIdeal.Block

open Cert.KernelIdeal Cert.KernelIdeal.Gen Cert.Histogram Idealize.ShloMosaic Idealize.ShloMosaic.ValueIdx

/-- Position `k` of the flattened block: its row and lane. -/
abbrev rowLane (k : Fin 262144) : S2048x128.Idx :=
  ix2 (⟨k.val / 128, by have := k.isLt; omega⟩ : Fin 2048) (⟨k.val % 128, by omega⟩ : Fin 128)

/-- The one-bit compare of two words, widened and converted: one where they are equal, zero elsewhere. -/
theorem sitofp_cmpi_eq (w v : BitVec 32) :
    FloatOps.sitofp (F := Ideal) .f32 ((IntOp.cmpi .eq w v).setWidth 32) = if w = v then 1 else 0 := by
  show (((((IntOp.cmpi .eq w v).setWidth 32).toInt : ℝ)) : EReal) = _
  by_cases h : w = v
  · subst h
    simp [IntOp.cmpi]
  · have hb : (w == v) = false := by simpa using h
    simp [IntOp.cmpi, hb, h]

/-- The block with a unit axis in front, repeated over `n` classes, read at (p, r, l): the block at (r, l). -/
theorem labels_apply {n : ℕ} (hc : S2048x128.ShapeCasts S1x2048x128)
    (hb : S1x2048x128.Broadcasts ⟨3, ![n, 2048, 128]⟩) (lab : IVec S2048x128 32)
    (p : Fin n) (r : Fin 2048) (l : Fin 128) :
    broadcastTo ⟨3, ![n, 2048, 128]⟩ (shapeCast S1x2048x128 lab hc) hb (ix3 p r l) = lab (ix2 r l) := by
  have e1 := broadcastTo_apply (shapeCast S1x2048x128 lab hc) hb (ix3 p r l) (ix3 (0 : Fin 1) r l) (by
    intro a
    match a with
    | ⟨0, _⟩ => rfl
    | ⟨1, _⟩ => show r.val = if (2048 : ℕ) = 1 then 0 else r.val; rfl
    | ⟨2, _⟩ => show l.val = if (128 : ℕ) = 1 then 0 else l.val; rfl)
  have e2 := shapeCast_apply lab hc (ix3 (0 : Fin 1) r l) (ix2 r l) (by
    rw [Shape.rowMajor_val_two, Shape.rowMajor_val_three]
    show r.val * 128 + l.val = (0 * 2048 + r.val) * 128 + l.val
    omega)
  rw [e1, e2]

/-- The class numbers 0 … n - 1 along the first axis, repeated over the block, read at (p, r, l): the word p. -/
theorem classes_apply {n : ℕ} (hi : (⟨3, ![n, 1, 1]⟩ : Shape).Iotas .tc 32 [0])
    (hb : (⟨3, ![n, 1, 1]⟩ : Shape).Broadcasts ⟨3, ![n, 2048, 128]⟩)
    (p : Fin n) (r : Fin 2048) (l : Fin 128) :
    broadcastTo ⟨3, ![n, 2048, 128]⟩ (iota .tc ⟨3, ![n, 1, 1]⟩ 32 [0] hi) hb (ix3 p r l) = BitVec.ofNat 32 p.val := by
  have e1 := broadcastTo_apply (iota .tc ⟨3, ![n, 1, 1]⟩ 32 [0] hi) hb (ix3 p r l) (ix3 p (0 : Fin 1) (0 : Fin 1)) (by
    intro a
    match a with
    | ⟨0, _⟩ =>
      show p.val = if n = 1 then 0 else p.val
      split
      · have := p.isLt; omega
      · rfl
    | ⟨1, _⟩ => rfl
    | ⟨2, _⟩ => rfl)
  rw [e1, iota_single_apply]
  rfl

/-- One stack of indicator rows read at (p, k): one where voxel k of the block carries the word p, zero elsewhere.
    Position (p, k) of the [n, 262144] stack is position (p, k / 128, k mod 128) of the [n, 2048, 128] stack: both are
    row-major position 262144 p + k. -/
theorem mask_apply {n : ℕ} (hc : S2048x128.ShapeCasts S1x2048x128)
    (hb : S1x2048x128.Broadcasts ⟨3, ![n, 2048, 128]⟩)
    (hi : (⟨3, ![n, 1, 1]⟩ : Shape).Iotas .tc 32 [0])
    (hbi : (⟨3, ![n, 1, 1]⟩ : Shape).Broadcasts ⟨3, ![n, 2048, 128]⟩)
    (hx : 1 < 32) (ht : FTy.bits .bf16 < FTy.bits .f32)
    (hr : (⟨3, ![n, 2048, 128]⟩ : Shape).ShapeCasts ⟨2, ![n, 262144]⟩)
    (lab : IVec S2048x128 32) (p : Fin n) (k : Fin 262144) :
    (shapeCast ⟨2, ![n, 262144]⟩
      (truncf .bf16 (sitofp (F := Ideal) .f32 (extui 32 (cmpi .eq
        (broadcastTo ⟨3, ![n, 2048, 128]⟩ (shapeCast S1x2048x128 lab hc) hb)
        (broadcastTo ⟨3, ![n, 2048, 128]⟩ (iota .tc ⟨3, ![n, 1, 1]⟩ 32 [0] hi) hbi)) hx)) ht) hr
      : FVec Ideal ⟨2, ![n, 262144]⟩ .bf16) (ix2 p k) = ind (lab (rowLane k)) p.val := by
  have e1 := shapeCast_apply
    (truncf .bf16 (sitofp (F := Ideal) .f32 (extui 32 (cmpi .eq
        (broadcastTo ⟨3, ![n, 2048, 128]⟩ (shapeCast S1x2048x128 lab hc) hb)
        (broadcastTo ⟨3, ![n, 2048, 128]⟩ (iota .tc ⟨3, ![n, 1, 1]⟩ 32 [0] hi) hbi)) hx)) ht) hr (ix2 p k)
    (ix3 p (⟨k.val / 128, by have := k.isLt; omega⟩ : Fin 2048) (⟨k.val % 128, by omega⟩ : Fin 128)) (by
      rw [Shape.rowMajor_val_two, Shape.rowMajor_val_three]
      show (p.val * 2048 + k.val / 128) * 128 + k.val % 128 = p.val * 262144 + k.val
      omega)
  rw [e1, truncf_apply, sitofp_apply, extui_apply]
  show FloatOps.sitofp (F := Ideal) .f32 ((IntOp.cmpi .eq
      (broadcastTo ⟨3, ![n, 2048, 128]⟩ (shapeCast S1x2048x128 lab hc) hb (ix3 p _ _))
      (broadcastTo ⟨3, ![n, 2048, 128]⟩ (iota .tc ⟨3, ![n, 1, 1]⟩ 32 [0] hi) hbi (ix3 p _ _))).setWidth 32) = _
  rw [labels_apply, classes_apply, sitofp_cmpi_eq]
  rfl

/-- Rounding to the nearest integer, ties to even, is one function of the ideal values under both of its names. -/
theorem roundeven_eq_host (x : FVec Ideal S2048x128 .f32) : roundeven (F := Ideal) x = Host.roundeven (F := Ideal) x :=
  funext fun _ => rfl

/-- The reset stores the zero block. -/
theorem pay1_apply (j : S1x41x26.Idx) : k0_pay1 (F := Ideal) j = 0 := by
  show Ideal.ofBits .f32 0x00000000#32 = 0
  exact Ideal.ofBits_zero_f32

/-- The body's store at (p, c): what the block held plus the block's voxels that carry both ids. -/
theorem pay2_apply (x0 : Vec Ideal S2048x128 .f32) (x1 : Vec Ideal S2048x128 .i32) (acc : Vec Ideal S1x41x26 .f32)
    (p : Fin 41) (c : Fin 26) :
    k0_pay2 (F := Ideal) x0 x1 acc (ix3 (0 : Fin 1) p c)
      = acc (ix3 (0 : Fin 1) p c)
        + ∑ k : Fin 262144, ind (fptosi 32 (Host.roundeven (F := Ideal) (s := S2048x128) (φ := .f32) x0) (rowLane k)) p.val
            * ind ((x1 : IVec S2048x128 32) (rowLane k)) c.val := by
  unfold k0_pay2
  dsimp only
  rw [addf_apply]
  simp only [shapeCast_self]
  rw [roundeven_eq_host]
  refine congrArg (acc (ix3 (0 : Fin 1) p c) + ·) ?_
  refine (shapeCast_apply _ shapeCasts_S41x26_S1x41x26 (ix3 (0 : Fin 1) p c) (ix2 p c) ?_).trans ?_
  · rw [Shape.rowMajor_val_two, Shape.rowMajor_val_three]
    show p.val * 26 + c.val = (0 * 41 + p.val) * 26 + c.val
    omega
  refine (Idealize.ShloMosaic.LibDotLastAxis.matmul_zero_apply _ none _ _ p c).trans ?_
  refine Finset.sum_congr rfl fun k _ => ?_
  refine congrArg₂ (· * ·) ?_ ?_
  · exact mask_apply (n := 41) shapeCasts_S2048x128_S1x2048x128 broadcasts_S1x2048x128_S41x2048x128
      iota_S41x1x1_d0_w32 broadcasts_S41x1x1_S41x2048x128 natLt_1_32 bitsLt_bf16_f32 shapeCasts_S41x2048x128_S41x262144
      (fptosi 32 (Host.roundeven (F := Ideal) (s := S2048x128) (φ := .f32) x0)) p k
  · exact mask_apply (n := 26) shapeCasts_S2048x128_S1x2048x128 broadcasts_S1x2048x128_S26x2048x128
      iota_S26x1x1_d0_w32 broadcasts_S26x1x1_S26x2048x128 natLt_1_32 bitsLt_bf16_f32 shapeCasts_S26x2048x128_S26x262144
      x1 c k

end Cert.KernelIdeal.Block

end
-- ==== Proof.KernelPieces.lean ====
/-
  What each control case of the histogram kernel's body leaves in the output block's staging buffer, as the body's
  payloads: at the first point of a half the zero block is stored and read back, so the block ends at the body's sum
  over the zero block; at every other point it ends at the body's sum over what the point before left.
-/
import proofs.«424809_j90821378441236_2_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.SL.Sem Idealize.ShloMosaic.Tactic

variable {F : FTy → Type} [FloatOps F]

/-- The origin of a rank-3 block, as the constant-zero offset. -/
theorem zero3 : (![0, 0, 0] : Fin 3 → Nat) = fun _ => 0 := funext fun a => by fin_cases a <;> rfl

/-- The origin of a rank-2 block, as the constant-zero offset. -/
theorem zero2 : (![0, 0] : Fin 2 → Nat) = fun _ => 0 := funext fun a => by fin_cases a <;> rfl

/-- The first point of a half: the body's store over the zero block it has just written and read back. -/
theorem out0_A_2_eq (c : Dev nD) (i : grid0.Coords) (arg2 : Memref sig .tc .vmem S2048x128 .f32) (harg2 : arg2.IsWhole)
    (arg3 : Memref sig .tc .vmem S2048x128 .i32) (harg3 : arg3.IsWhole) (arg4 : Memref sig .tc .vmem S1x41x26 .f32) (harg4 : arg4.IsWhole)
    (hc0 : cond0_0 i) (x0 : Vec F S2048x128 .f32) (x1 : Vec F S2048x128 .i32) :
    out0_A_2 (F := F) c i arg2 harg2 arg3 harg3 arg4 harg4 hc0 x0 x1 = k0_pay2 x0 x1 (k0_pay1 (F := F)) := by
  unfold out0_A_2
  rw [View.read_writes_eq_canon _ _ _ (cover0_A_2 c i arg2 harg2 arg3 harg3 arg4 harg4 hc0 x0 x1)]
  unfold kernelRun0_A
  dsimp only
  sl_unfold_words
  rw [View.canon_cons_unit_zero (S := S1x41x26) zero3, View.readCov_unit_zero (S := S1x41x26) _ zero3]
  simp only [View.readAt_eq_ld, harg2.read_unread, harg3.read_unread,
    View.ld_unit_zero (S := S2048x128) zero2]

/-- Every other point: the body's store over what the buffer held. -/
theorem out0_B_2_eq (c : Dev nD) (i : grid0.Coords) (arg2 : Memref sig .tc .vmem S2048x128 .f32) (harg2 : arg2.IsWhole)
    (arg3 : Memref sig .tc .vmem S2048x128 .i32) (harg3 : arg3.IsWhole) (arg4 : Memref sig .tc .vmem S1x41x26 .f32) (harg4 : arg4.IsWhole)
    (hc0 : ¬cond0_0 i) (x0 : Vec F S2048x128 .f32) (x1 : Vec F S2048x128 .i32) (xo2 : Vec F S1x41x26 .f32) :
    out0_B_2 (F := F) c i arg2 harg2 arg3 harg3 arg4 harg4 hc0 x0 x1 xo2 = k0_pay2 x0 x1 xo2 := by
  unfold out0_B_2
  rw [View.read_writes_eq_canon _ _ _ (cover0_B_2 c i arg2 harg2 arg3 harg3 arg4 harg4 hc0 x0 x1 xo2)]
  unfold kernelRun0_B
  dsimp only
  rw [View.canon_unit_zero zero3]
  simp only [View.readAt_eq_ld, harg2.read_unread, harg3.read_unread, harg4.read_unread,
    View.ld_unit_zero (S := S2048x128) zero2, View.ld_unit_zero (S := S1x41x26) zero3]

end Cert.KernelIdeal.Pieces

end
-- ==== Proof.KernelArray.lean ====
/-
  The histogram kernel's result array: half h of the 2 x 41 x 26 array ends holding, at (p, c), the hits of the 32
  blocks of that half summed block after block from zero.

  Block t of the two [131072, 128] input arrays (the volume reshaped twice, row-major) holds voxels 262144 t … of the
  volume: row r, lane l of the block is voxel 262144 t + 128 r + l. The output block of half h is reset at point 32 h,
  gains one block's hits per point, and is written back after point 32 h + 31.
-/
import proofs.«424809_j90821378441236_2_alg».proof.Proof.Gen.KernelIdeal.Frame
import proofs.«424809_j90821378441236_2_alg».proof.Proof.Histogram
import proofs.«424809_j90821378441236_2_alg».proof.Proof.KernelBlock
import proofs.«424809_j90821378441236_2_alg».proof.Proof.KernelPieces
import Idealize.ShloMosaic.Lib.Pipeline.Value
import Idealize.ShloMosaic.Lib.ValueIdx

set_option maxRecDepth 16384

noncomputable section

open scoped BigOperators

namespace Cert.KernelIdeal.HistArray

open Cert.KernelIdeal Cert.KernelIdeal.Gen Cert.Histogram Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-- The block index of each window at point `t`: the two inputs stage block `t`, the output the block of half `t / 32`. -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 3) = t.val / 32 ∧ win0_2.index t (1 : Fin 3) = 0 ∧ win0_2.index t (2 : Fin 3) = 0 :=
  (by decide +kernel : ∀ t : Fin grid0.N, _)

/-- The prediction array the region finds: the volume flattened, then cut into rows of 128. -/
theorem preds_eq_reshape (c : Dev nD) : (V m c main_v2 : S131072x128.Idx → Elt Ideal .f32)
    = shapeCast S131072x128 (shapeCast S16777216 (m ((c.tc : Thread nD τ).loc main_arg0)) shapeCasts_S256x256x256_S16777216) shapeCasts_S16777216_S131072x128 := by
  dsimp only [Gen.V, Gen.V0]
  simp only [Gen.hostOps0, List.flatten_cons, List.flatten_nil, List.append_nil]
  after_results
  rfl

/-- The ground-truth array the region finds: the same two reshapes of the second argument. -/
theorem gts_eq_reshape (c : Dev nD) : (V m c main_v3 : S131072x128.Idx → Elt Ideal .i32)
    = shapeCast S131072x128 (shapeCast S16777216 (m ((c.tc : Thread nD τ).loc main_arg1)) shapeCasts_S256x256x256_S16777216) shapeCasts_S16777216_S131072x128 := by
  dsimp only [Gen.V, Gen.V0]
  simp only [Gen.hostOps0, List.flatten_cons, List.flatten_nil, List.append_nil]
  after_results
  rfl

/-- Row `R`, lane `l` of the twice reshaped volume is voxel `128 R + l`: both reshapes keep the row-major position. -/
theorem reshape_voxel {α : Type} (a : HVol.Idx → α) (R : Fin 131072) (l : Fin 128) (v : Fin 16777216)
    (hv : v.val = 128 * R.val + l.val) :
    shapeCast S131072x128 (shapeCast S16777216 a shapeCasts_S256x256x256_S16777216) shapeCasts_S16777216_S131072x128 (ix2 R l)
      = a (voxel v) := by
  refine (shapeCast_apply _ _ (ix2 R l) (ix1 v) ?_).trans ?_
  · rw [Shape.rowMajor_val_one, Shape.rowMajor_val_two]
    show v.val = R.val * 128 + l.val
    omega
  · refine shapeCast_apply _ _ (ix1 v) (voxel v) ?_
    rw [Shape.rowMajor_val_three, Shape.rowMajor_val_one]
    show (v.val / 65536 * 256 + v.val / 256 % 256) * 256 + v.val % 256 = v.val
    omega

/-- The volume's predictions and ground-truth ids as launched, and the two blocks staged at point `t`. -/
abbrev preds (c : Dev nD) : FVec Ideal HVol .f32 := m ((c.tc : Thread nD τ).loc main_arg0)
abbrev gts (c : Dev nD) : IVec HVol 32 := m ((c.tc : Thread nD τ).loc main_arg1)
abbrev predBlock (c : Dev nD) (t : Fin cfg0.N) : Vec Ideal S2048x128 .f32 := iblk m c 0 t
abbrev gtBlock (c : Dev nD) (t : Fin cfg0.N) : Vec Ideal S2048x128 .i32 := iblk m c 1 t

/-- Position `k` of the prediction block at point `t` is voxel `262144 t + k` of the volume. -/
theorem predBlock_voxel (c : Dev nD) (t : Fin cfg0.N) (k : Fin 262144) (v : Fin 16777216)
    (hv : v.val = 262144 * t.val + k.val) :
    predBlock m c t (Block.rowLane k) = preds m c (voxel v) := by
  obtain ⟨e0, e1, -⟩ := block_index t
  have hN : t.val < 64 := lt_of_lt_of_eq t.isLt (show cfg0.N = 64 from N_0)
  have hk := k.isLt
  unfold predBlock iblk
  rw [View.read_apply]
  show V m c main_v2 _ = _
  refine (congrArg (V m c main_v2 : S131072x128.Idx → Elt Ideal .f32)
    (show _ = ix2 (⟨2048 * t.val + k.val / 128, by omega⟩ : Fin 131072) (⟨k.val % 128, by omega⟩ : Fin 128) from ?_)).trans ?_
  · funext a
    apply Fin.ext
    match a with
    | ⟨0, _⟩ => show win0_0.index t (0 : Fin 2) * 2048 + 1 * (k.val / 128) = 2048 * t.val + k.val / 128; rw [e0]; omega
    | ⟨1, _⟩ => show win0_0.index t (1 : Fin 2) * 128 + 1 * (k.val % 128) = k.val % 128; rw [e1]; omega
  · rw [preds_eq_reshape]
    exact reshape_voxel (preds m c) _ _ v (by show v.val = 128 * (2048 * t.val + k.val / 128) + k.val % 128; omega)

/-- Position `k` of the ground-truth block at point `t` is voxel `262144 t + k` of the volume. -/
theorem gtBlock_voxel (c : Dev nD) (t : Fin cfg0.N) (k : Fin 262144) (v : Fin 16777216)
    (hv : v.val = 262144 * t.val + k.val) :
    gtBlock m c t (Block.rowLane k) = gts m c (voxel v) := by
  obtain ⟨-, -, e0, e1, -⟩ := block_index t
  have hN : t.val < 64 := lt_of_lt_of_eq t.isLt (show cfg0.N = 64 from N_0)
  have hk := k.isLt
  unfold gtBlock iblk
  rw [View.read_apply]
  show V m c main_v3 _ = _
  refine (congrArg (V m c main_v3 : S131072x128.Idx → Elt Ideal .i32)
    (show _ = ix2 (⟨2048 * t.val + k.val / 128, by omega⟩ : Fin 131072) (⟨k.val % 128, by omega⟩ : Fin 128) from ?_)).trans ?_
  · funext a
    apply Fin.ext
    match a with
    | ⟨0, _⟩ => show win0_1.index t (0 : Fin 2) * 2048 + 1 * (k.val / 128) = 2048 * t.val + k.val / 128; rw [e0]; omega
    | ⟨1, _⟩ => show win0_1.index t (1 : Fin 2) * 128 + 1 * (k.val % 128) = k.val % 128; rw [e1]; omega
  · rw [gts_eq_reshape]
    exact reshape_voxel (gts m c) _ _ v (by show v.val = 128 * (2048 * t.val + k.val / 128) + k.val % 128; omega)

/-- The hits of block `t` at entry (p, q): the sum over its 262144 voxels; zero past the 64 blocks. -/
def blockHits (Lw Gw : Fin 16777216 → BitVec 32) (p q t : ℕ) : EReal :=
  if ht : t < 64 then ∑ k : Fin 262144, hit Lw Gw p q ⟨262144 * t + k.val, block_lt ht k.isLt⟩ else 0

/-- The label words of the launched volume. -/
abbrev Lw (c : Dev nD) : Fin 16777216 → BitVec 32 := labelWord (preds m c)
abbrev Gw (c : Dev nD) : Fin 16777216 → BitVec 32 := gtWord (gts m c)

/-- A block whose position `k` is voxel `262144 t + k` of the volume, for both arrays: the body's sum of indicator products
    over the block's positions is the hits of block `t`. -/
theorem body_sum_of (x0 : FVec Ideal S2048x128 .f32) (x1 : IVec S2048x128 32) (a0 : FVec Ideal HVol .f32) (a1 : IVec HVol 32)
    (t : ℕ) (ht : t < 64)
    (h0 : ∀ k : Fin 262144, x0 (Block.rowLane k) = a0 (voxel ⟨262144 * t + k.val, block_lt ht k.isLt⟩))
    (h1 : ∀ k : Fin 262144, x1 (Block.rowLane k) = a1 (voxel ⟨262144 * t + k.val, block_lt ht k.isLt⟩)) (p q : ℕ) :
    (∑ k : Fin 262144, ind (fptosi 32 (Host.roundeven (F := Ideal) (s := S2048x128) (φ := .f32) x0) (Block.rowLane k)) p
        * ind ((x1 : IVec S2048x128 32) (Block.rowLane k)) q)
      = blockHits (labelWord a0) (gtWord a1) p q t := by
  unfold blockHits
  rw [dif_pos ht]
  refine Finset.sum_congr rfl fun k _ => ?_
  show ind (FloatOps.fptosi 32 (FloatOps.hostUnary (F := Ideal) (φ := .f32) .roundeven (x0 (Block.rowLane k)))) p * ind (x1 (Block.rowLane k)) q
    = ind (FloatOps.fptosi 32 (FloatOps.hostUnary (F := Ideal) (φ := .f32) .roundeven (a0 (voxel ⟨262144 * t + k.val, block_lt ht k.isLt⟩)))) p
      * ind (a1 (voxel ⟨262144 * t + k.val, block_lt ht k.isLt⟩)) q
  rw [h0 k, h1 k]

/-- What the body adds at (p, q) at point `t`: the hits of block `t`. -/
theorem body_sum (c : Dev nD) (t : Fin cfg0.N) (p : Fin 41) (q : Fin 26) :
    (∑ k : Fin 262144, ind (fptosi 32 (Host.roundeven (F := Ideal) (s := S2048x128) (φ := .f32) (predBlock m c t)) (Block.rowLane k)) p.val
        * ind ((gtBlock m c t : IVec S2048x128 32) (Block.rowLane k)) q.val)
      = blockHits (Lw m c) (Gw m c) p.val q.val t.val :=
  body_sum_of (predBlock m c t) (gtBlock m c t) (preds m c) (gts m c) t.val
    (lt_of_lt_of_eq t.isLt (show cfg0.N = 64 from N_0))
    (fun k => predBlock_voxel m c t k _ rfl) (fun k => gtBlock_voxel m c t k _ rfl) p.val q.val

/-- At the first point of a half the output block ends at that block's hits. -/
theorem reset_point (c : Dev nD) (t : Fin cfg0.N) (h0 : t.val % 32 = 0) (p : Fin 41) (q : Fin 26) :
    outsAt0 m c t.val t.isLt (ix3 (0 : Fin 1) p q) = blockHits (Lw m c) (Gw m c) p.val q.val t.val := by
  rw [outsAt0_A m c t h0]
  refine (congrFun (Pieces.out0_A_2_eq (F := Ideal) c (grid0.coords t) (ms0_0 t) (hs0_0 t) (ms0_1 t) (hs0_1 t) (ms0_2 t) (hs0_2 t)
    ((hcond0_0 t).mpr h0) (predBlock m c t) (gtBlock m c t)) (ix3 (0 : Fin 1) p q)).trans ?_
  refine (Block.pay2_apply (predBlock m c t) (gtBlock m c t) (k0_pay1 (F := Ideal)) p q).trans ?_
  rw [Block.pay1_apply, zero_add]
  exact body_sum m c t p q

/-- At every other point it gains that block's hits. -/
theorem later_point (c : Dev nD) (t : Fin cfg0.N) (h0 : ¬t.val % 32 = 0) (p : Fin 41) (q : Fin 26) :
    outsAt0 m c t.val t.isLt (ix3 (0 : Fin 1) p q)
      = outsAt0 m c (t.val - 1) (Nat.lt_of_le_of_lt (Nat.sub_le _ _) t.isLt) (ix3 (0 : Fin 1) p q)
        + blockHits (Lw m c) (Gw m c) p.val q.val t.val := by
  rw [outsAt0_B m c t h0]
  refine (congrFun (Pieces.out0_B_2_eq (F := Ideal) c (grid0.coords t) (ms0_0 t) (hs0_0 t) (ms0_1 t) (hs0_1 t) (ms0_2 t) (hs0_2 t)
    (fun h => h0 ((hcond0_0 t).mp h)) (predBlock m c t) (gtBlock m c t)
    (outsAt0 m c (t.val - 1) (Nat.lt_of_le_of_lt (Nat.sub_le _ _) t.isLt))) (ix3 (0 : Fin 1) p q)).trans ?_
  refine (Block.pay2_apply (predBlock m c t) (gtBlock m c t)
    (outsAt0 m c (t.val - 1) (Nat.lt_of_le_of_lt (Nat.sub_le _ _) t.isLt)) p q).trans ?_
  rw [body_sum m c t p q]

/-- After point `n` the output block holds the hits of the blocks of its half up to `n`, summed. -/
theorem running_sum (c : Dev nD) (p : Fin 41) (q : Fin 26) : ∀ (n : ℕ) (h : n < cfg0.N),
    outsAt0 m c n h (ix3 (0 : Fin 1) p q)
      = ∑ j ∈ Finset.range (n % 32 + 1), blockHits (Lw m c) (Gw m c) p.val q.val (32 * (n / 32) + j)
  | 0, h => by
    rw [reset_point m c ⟨0, h⟩ rfl p q]
    show _ = ∑ j ∈ Finset.range 1, _
    rw [Finset.sum_range_one]
  | n + 1, h => by
    by_cases h0 : (n + 1) % 32 = 0
    · rw [reset_point m c ⟨n + 1, h⟩ h0 p q, h0, Finset.sum_range_one]
      show blockHits _ _ _ _ (n + 1) = _
      congr 1
      omega
    · rw [later_point m c ⟨n + 1, h⟩ h0 p q]
      show outsAt0 m c n (Nat.lt_of_succ_lt h) (ix3 (0 : Fin 1) p q) + blockHits _ _ _ _ (n + 1) = _
      rw [running_sum c p q n (Nat.lt_of_succ_lt h), Finset.sum_range_succ _ ((n + 1) % 32)]
      have e1 : n % 32 + 1 = (n + 1) % 32 := by omega
      have e2 : n / 32 = (n + 1) / 32 := by omega
      have e3 : 32 * ((n + 1) / 32) + (n + 1) % 32 = n + 1 := by omega
      rw [e1, e2, e3]

/-- A half table at (h, p, q): the hits of the 32 blocks of half `h`, summed in turn. -/
theorem halfCounts_eq (Lw Gw : Fin 16777216 → BitVec 32) (h : Fin 2) (p : Fin 41) (q : Fin 26) :
    halfCounts Lw Gw (ix3 h p q) = ∑ j ∈ Finset.range 32, blockHits Lw Gw p.val q.val (32 * h.val + j) := by
  rw [Finset.sum_range]
  unfold halfCounts
  refine Finset.sum_congr rfl fun j _ => ?_
  unfold blockHits
  rw [dif_pos (by have := h.isLt; have := j.isLt; omega)]

/-- What a flushing point writes back: the block of its half of the two half tables. -/
theorem written_back (c : Dev nD) (t : Fin cfg0.N) (hf : (cfg0.win 2).flush t = true) :
    (dats m 0 c).flushed 2 t = ((cfg0.win 2).blk t).view.read (Elt Ideal) (halfCounts (Lw m c) (Gw m c)) := by
  have h31 : t.val % 32 = 31 := (flush0_2 t).mp hf
  have hN : t.val < 64 := lt_of_lt_of_eq t.isLt (show cfg0.N = 64 from N_0)
  obtain ⟨-, -, -, -, e0, e1, e2⟩ := block_index t
  show (cfg0.win 2).cut (grid0.coords t) ((dats m 0 c).after 2 t) = _
  rw [after0_2]
  refine funext fun (y : S1x41x26.Idx) => ?_
  obtain ⟨p, q, rfl⟩ : ∃ (p : Fin 41) (q : Fin 26), y = ix3 (0 : Fin 1) p q :=
    ⟨y 1, y 2, funext fun a => by
      match a with
      | ⟨0, _⟩ => exact Subsingleton.elim (α := Fin 1) _ _
      | ⟨1, _⟩ => rfl
      | ⟨2, _⟩ => rfl⟩
  rw [View.read_apply]
  show outsAt0 m c t.val t.isLt (ix3 (0 : Fin 1) p q)
    = halfCounts (Lw m c) (Gw m c) (((cfg0.win 2).blk t).view.emb (ix3 (0 : Fin 1) p q))
  have he : ((cfg0.win 2).blk t).view.emb (ix3 (0 : Fin 1) p q) = ix3 (⟨t.val / 32, by omega⟩ : Fin 2) p q := by
    funext a
    apply Fin.ext
    match a with
    | ⟨0, _⟩ => show win0_2.index t (0 : Fin 3) * 1 + 1 * 0 = t.val / 32; rw [e0]; omega
    | ⟨1, _⟩ => show win0_2.index t (1 : Fin 3) * 41 + 1 * p.val = p.val; rw [e1]; omega
    | ⟨2, _⟩ => show win0_2.index t (2 : Fin 3) * 26 + 1 * q.val = q.val; rw [e2]; omega
  rw [he, halfCounts_eq, running_sum m c p q t.val t.isLt, h31]

/-- Entry (h, p, q) of the result array lies in the block the last point of half `h` writes back. -/
theorem half_covered (i : S2x41x26.Idx) :
    ∃ t : Fin cfg0.N, (cfg0.win 2).flush t = true ∧ i ∈ ((cfg0.win 2).blk t).view.set := by
  have h0 : (i 0).val < 2 := (i 0).isLt
  have h1 : (i 1).val < 41 := (i 1).isLt
  have h2 : (i 2).val < 26 := (i 2).isLt
  have hlt : 32 * (i 0).val + 31 < cfg0.N := lt_of_lt_of_eq (by omega) (show cfg0.N = 64 from N_0).symm
  obtain ⟨-, -, -, -, e0, e1, e2⟩ := block_index ⟨32 * (i 0).val + 31, hlt⟩
  refine ⟨⟨32 * (i 0).val + 31, hlt⟩, (flush0_2 _).mpr (by show (32 * (i 0).val + 31) % 32 = 31; omega), ?_⟩
  show i ∈ ((View.whole main_v4).slice (win0_2.rect ⟨32 * (i 0).val + 31, hlt⟩)).set
  rw [View.set_slice_whole, Rect.mem_set_unit]
  intro a
  match a with
  | ⟨0, _⟩ =>
    show win0_2.index ⟨32 * (i 0).val + 31, hlt⟩ (0 : Fin 3) * 1 ≤ (i 0).val
      ∧ (i 0).val < win0_2.index ⟨32 * (i 0).val + 31, hlt⟩ (0 : Fin 3) * 1 + 1
    rw [e0]
    show (32 * (i 0).val + 31) / 32 * 1 ≤ (i 0).val ∧ (i 0).val < (32 * (i 0).val + 31) / 32 * 1 + 1
    omega
  | ⟨1, _⟩ =>
    show win0_2.index ⟨32 * (i 0).val + 31, hlt⟩ (1 : Fin 3) * 41 ≤ (i 1).val
      ∧ (i 1).val < win0_2.index ⟨32 * (i 0).val + 31, hlt⟩ (1 : Fin 3) * 41 + 41
    rw [e1]
    omega
  | ⟨2, _⟩ =>
    show win0_2.index ⟨32 * (i 0).val + 31, hlt⟩ (2 : Fin 3) * 26 ≤ (i 2).val
      ∧ (i 2).val < win0_2.index ⟨32 * (i 0).val + 31, hlt⟩ (2 : Fin 3) * 26 + 26
    rw [e2]
    omega

/-- The result array after the region: the two half tables of the volume's label words. -/
theorem final2 (c : Dev nD) :
    (dats m 0 c).arrAt 2 cfg0.N
      = halfCounts (labelWord (m ((c.tc : Thread nD τ).loc main_arg0))) (gtWord (m ((c.tc : Thread nD τ).loc main_arg1))) := by
  exact (dats m 0 c).arrAt_eq_of_cover 2 (halfCounts (Lw m c) (Gw m c)) (written_back m c) half_covered

end Cert.KernelIdeal.HistArray

end
-- ==== Proof.KernelRun.lean ====
/-
  The histogram kernel's program read back: after the region the host sums the two half tables into the joint
  histogram and computes the instance Dice score from it; every execution ends with the result at that score of the
  volume's joint histogram, the arguments unchanged.
-/
import proofs.«424809_j90821378441236_2_alg».proof.Proof.Gen.KernelIdeal.Frame
import proofs.«424809_j90821378441236_2_alg».proof.Proof.Histogram
import proofs.«424809_j90821378441236_2_alg».proof.Proof.KernelArray
import Idealize.ShloMosaic.Lib.Pipeline.Value
import Idealize.ShloMosaic.Lib.StableHlo.Run
import Idealize.ShloMosaic.PureOps.Ideal.Laws

set_option maxRecDepth 16384

noncomputable section

open scoped BigOperators

namespace Cert.KernelIdeal.HistRun

open Cert.KernelIdeal Cert.KernelIdeal.Gen Cert.Histogram Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The host's sum over the half axis, read at one entry: the two halves' entries added, which is the joint
    histogram's entry. -/
theorem sum_halves_at (Lw Gw : Fin 16777216 → BitVec 32) (p : Fin 41) (c : Fin 26) :
    Host.reduceAdd (F := Ideal) (halfCounts Lw Gw : FVec Ideal H2x41x26 .f32) (constant (F := Ideal) H0 .f32 0x00000000#32)
      reduces_2x41x26_41x26 pos_H0 (ix2 p c) = counts Lw Gw (ix2 p c) := by
  have hR : Shape.Reduces H2x41x26 [0] H41x26 := by decide
  refine (Ideal.hostReduceAdd_single reduces_2x41x26_41x26 hR (halfCounts Lw Gw) _ (ix2 p c)).trans ?_
  rw [counts_eq_halves]
  show Ideal.ofBits .f32 0x00000000#32 + ∑ k : Fin 2, halfCounts Lw Gw (hR.lift (ix2 p c) k) = _
  rw [Ideal.ofBits_zero_f32, zero_add]
  refine Finset.sum_congr rfl (fun h _ => congrArg (halfCounts Lw Gw) ?_)
  funext a
  match a with
  | ⟨0, _⟩ => exact Fin.ext rfl
  | ⟨1, _⟩ => exact Fin.ext rfl
  | ⟨2, _⟩ => exact Fin.ext rfl

/-- The host's sum of the two half tables over the half axis is the joint histogram. -/
theorem sum_halves (Lw Gw : Fin 16777216 → BitVec 32) :
    Host.reduceAdd (F := Ideal) (halfCounts Lw Gw : FVec Ideal H2x41x26 .f32) (constant (F := Ideal) H0 .f32 0x00000000#32)
      reduces_2x41x26_41x26 pos_H0 = counts Lw Gw := by
  funext i
  rw [eq_ix2 i]
  exact sum_halves_at Lw Gw (i 0) (i 1)

/-- The program's lines after the region, applied to the result array as the region leaves it, are the score of the
    sum of its two halves over the half axis. -/
theorem tail_of_array (c : Dev nD) :
    Pipeline.afterTail₀ cfgs (dats m) 0 (V0 m) [hostOps1, hostOps1_1, hostOps1_2] c main_v41
      = diceTail (Host.reduceAdd (F := Ideal)
          (Pipeline.withArrays spec0 c (V0 m c) (fun w => (dats m 0 c).arrAt w cfg0.N) (Proc.devRef .tc main_v4) : FVec Ideal H2x41x26 .f32)
          (constant (F := Ideal) H0 .f32 0x00000000#32) reduces_2x41x26_41x26 pos_H0) := by
  unfold Pipeline.afterTail₀
  simp only [hostOps1, hostOps1_1, hostOps1_2, List.flatten_cons, List.flatten_nil, List.append_nil, List.cons_append, List.nil_append]
  after_results_simp
  simp only [StableHlo.TRef.ofBuf, StableHlo.TRef.toBuf, cast_eq]
  generalize Pipeline.withArrays spec0 c (V0 m c) (fun w => (dats m 0 c).arrAt w cfg0.N) (Proc.devRef .tc main_v4) = A
  unfold diceTail
  rfl

/-- The result array as the region leaves it: the two half tables of the volume's label words. -/
theorem array_eq (c : Dev nD) :
    (Pipeline.withArrays spec0 c (V0 m c) (fun w => (dats m 0 c).arrAt w cfg0.N) (Proc.devRef .tc main_v4) : FVec Ideal H2x41x26 .f32)
      = halfCounts (labelWord (m ((c.tc : Thread nD τ).loc main_arg0))) (gtWord (m ((c.tc : Thread nD τ).loc main_arg1))) :=
  (Pipeline.withArrays_arr spec0 launch0.win.arr_inj c _ _ 2).trans (HistArray.final2 m c)

/-- The program's result: the score of the volume's joint histogram. -/
theorem tail_eq (c : Dev nD) :
    Pipeline.afterTail₀ cfgs (dats m) 0 (V0 m) [hostOps1, hostOps1_1, hostOps1_2] c main_v41
      = diceTail (counts (labelWord (m ((c.tc : Thread nD τ).loc main_arg0))) (gtWord (m ((c.tc : Thread nD τ).loc main_arg1)))) := by
  refine (tail_of_array m c).trans (congrArg diceTail ?_)
  rw [array_eq m c]
  exact sum_halves _ _

/-- Every weakly fair execution terminates with the result at the score of the volume's joint histogram and the
    arguments as launched. -/
theorem run : θ_run (defs (F := Ideal)) (onTc (τ := τ) (main (F := Ideal))) ⟨m, fun _ => 0, ρ⟩ (fun r => ∀ c : Dev nD,
      r.2.mem ((c.tc : Thread nD τ).loc main_v41)
        = diceTail (counts (labelWord (m ((c.tc : Thread nD τ).loc main_arg0))) (gtWord (m ((c.tc : Thread nD τ).loc main_arg1))))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  exact (θ_run defs _ _).mono (fun r h c =>
    ⟨((h c).2 main_v41 (Pipeline.mem_restRefs_of main_v41 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.HistRun

end
-- ==== Proof.LibScatterVec.lean ====
/-
  A scatter-add of scalars read at an index, on the extended reals.

  Updates [M] are added into an operand [R]: update p goes to the operand entry named by start index p — a column
  [M, 1] of words read as signed integers and not clamped —; an update whose index falls outside the operand is
  dropped. At n the result is the operand there plus the sum of the updates whose index is n.
-/
import Idealize.ShloMosaic.PureOps.Ideal
import Idealize.ShloMosaic.PureOps.Contract
import Idealize.ShloMosaic.Lib.ValueIdx
import Idealize.ShloMosaic.Lib.ValueIdxRank1

noncomputable section

open scoped BigOperators

namespace Cert.ScatterVec

open Idealize.ShloMosaic Idealize.ShloMosaic.ValueIdx

/-- The dimension numbers of a scatter-add of scalars, opened: operand [R], a column [M, 1] of start indices, updates
    [M]; the updates have no window axis, the operand's one axis is inserted and is the axis a start index names, and
    the index vector lies along the indices' second axis. -/
abbrev scatterVecDims {R M : Nat}
    (wf : ScatterDims.WF ⟨1, ![R]⟩ ⟨2, ![M, 1]⟩ ⟨1, ![M]⟩ [] [0] [0] 1) :
    ScatterDims ⟨1, ![R]⟩ ⟨2, ![M, 1]⟩ ⟨1, ![M]⟩ where
  updateWindowDims := []
  insertedWindowDims := [0]
  scatterDimsToOperandDims := [0]
  indexVectorDim := 1
  wf := wf

/-- The window of update p starts at start index p, read signed and not clamped. -/
theorem scatterVec_start {R M : Nat}
    (wf : ScatterDims.WF ⟨1, ![R]⟩ ⟨2, ![M, 1]⟩ ⟨1, ![M]⟩ [] [0] [0] 1)
    (idx : IVec ⟨2, ![M, 1]⟩ 32) (p : Fin M) :
    (scatterVecDims wf).start (ix1 p) idx (0 : Fin 1) = (idx (ix2 p (0 : Fin 1))).toInt := by
  have hm : (0 : Fin 1) ∈ (scatterVecDims wf).scatterDimsToOperandDims := by
    show (0 : Fin 1) ∈ ([0] : List (Fin 1)); decide
  unfold ScatterDims.start
  rw [dif_pos hm]
  have hsi : (scatterVecDims wf).siIdx (ix1 p) ⟨List.idxOf (0 : Fin 1) (scatterVecDims wf).scatterDimsToOperandDims,
      List.idxOf_lt_length_iff.2 hm⟩ = ix2 p (0 : Fin 1) := by
    funext b; refine Fin.ext ?_
    match b with
    | ⟨0, _⟩ => rfl
    | ⟨1, _⟩ => rfl
  rw [hsi]

/-- The operand's one axis is inserted: the window coordinate of update p there is 0. -/
theorem scatterVec_window {R M : Nat}
    (wf : ScatterDims.WF ⟨1, ![R]⟩ ⟨2, ![M, 1]⟩ ⟨1, ![M]⟩ [] [0] [0] 1) (p : Fin M) :
    (scatterVecDims wf).window (ix1 p) (0 : Fin 1) = 0 := by
  have hk : (0 : Fin 1) ∉ (scatterVecDims wf).sKept := by
    show (0 : Fin 1) ∉ ((List.finRange 1).filter (fun a => a ∉ ([0] : List (Fin 1)))); decide
  unfold ScatterDims.window
  rw [dif_neg hk]

/-- Update p lands on operand entry n exactly when start index p, read signed, is n (it must lie in [0, R) to land at
    all). -/
theorem scatterVec_resultIdx_iff {R M : Nat}
    (wf : ScatterDims.WF ⟨1, ![R]⟩ ⟨2, ![M, 1]⟩ ⟨1, ![M]⟩ [] [0] [0] 1)
    (idx : IVec ⟨2, ![M, 1]⟩ 32) (p : Fin M) (n : Fin R) :
    (scatterVecDims wf).resultIdx? (ix1 p) idx = some (ix1 n)
      ↔ (idx (ix2 p (0 : Fin 1))).toInt = (n.val : Int) := by
  have h0 : (scatterVecDims wf).start (ix1 p) idx (0 : Fin 1) + (scatterVecDims wf).window (ix1 p) (0 : Fin 1)
      = (idx (ix2 p (0 : Fin 1))).toInt := by
    rw [scatterVec_start, scatterVec_window]; simp
  unfold ScatterDims.resultIdx?
  constructor
  · intro h
    split_ifs at h with hc
    have e := Option.some.inj h
    have e0 : ((scatterVecDims wf).start (ix1 p) idx (0 : Fin 1)
        + (scatterVecDims wf).window (ix1 p) (0 : Fin 1)).toNat = n.val := congrArg Fin.val (congrFun e (0 : Fin 1))
    have c0 := (hc (0 : Fin 1)).1
    rw [h0] at e0 c0
    omega
  · intro hn
    have hc : ∀ a : Fin 1, 0 ≤ (scatterVecDims wf).start (ix1 p) idx a + (scatterVecDims wf).window (ix1 p) a
        ∧ (scatterVecDims wf).start (ix1 p) idx a + (scatterVecDims wf).window (ix1 p) a
          < (⟨1, ![R]⟩ : Shape).size a := by
      intro a
      match a with
      | ⟨0, _⟩ =>
        show 0 ≤ (scatterVecDims wf).start (ix1 p) idx (0 : Fin 1) + (scatterVecDims wf).window (ix1 p) (0 : Fin 1)
          ∧ (scatterVecDims wf).start (ix1 p) idx (0 : Fin 1) + (scatterVecDims wf).window (ix1 p) (0 : Fin 1)
            < (R : Int)
        rw [h0, hn]; have := n.isLt; omega
    rw [dif_pos hc]
    congr 1
    funext a
    refine Fin.ext ?_
    match a with
    | ⟨0, _⟩ =>
      show ((scatterVecDims wf).start (ix1 p) idx (0 : Fin 1)
        + (scatterVecDims wf).window (ix1 p) (0 : Fin 1)).toNat = n.val
      rw [h0, hn]; rfl

/-- THE SCATTER-ADD OF SCALARS at n. The four hypotheses are the printed dimension numbers, each by `rfl`. -/
theorem scatter_vec_apply {R M : Nat} (d : ScatterDims ⟨1, ![R]⟩ ⟨2, ![M, 1]⟩ ⟨1, ![M]⟩)
    (huw : d.updateWindowDims = []) (hiw : d.insertedWindowDims = [0]) (hsd : d.scatterDimsToOperandDims = [0])
    (hiv : d.indexVectorDim = 1)
    (x : (⟨1, ![R]⟩ : Shape).Idx → EReal) (idx : IVec ⟨2, ![M, 1]⟩ 32) (upd : (⟨1, ![M]⟩ : Shape).Idx → EReal)
    (n : Fin R) :
    Host.scatterAdd (F := Ideal) (φ := .f32) d x idx upd (ix1 n)
      = x (ix1 n) + ∑ p ∈ Finset.univ.filter (fun p : Fin M => (idx (ix2 p (0 : Fin 1))).toInt = (n.val : Int)),
          upd (ix1 p) := by
  obtain ⟨uw, iw, sd, iv, wf⟩ := d
  dsimp only at huw hiw hsd hiv
  subst huw hiw hsd hiv
  show Ideal.hostScatterAdd (scatterVecDims wf) x idx upd (ix1 n) = _
  unfold Ideal.hostScatterAdd
  congr 1
  -- both filtered sums become sums of guarded terms; the sum over update indices is the sum over their one coordinate
  rw [Finset.sum_filter, Finset.sum_filter, ← Equiv.sum_comp (idxEquiv1 (n := M)).symm]
  refine Finset.sum_congr rfl fun p _ => ?_
  show (if (scatterVecDims wf).resultIdx? (ix1 p) idx = some (ix1 n) then upd (ix1 p) else 0) = _
  simp only [scatterVec_resultIdx_iff]

end Cert.ScatterVec

end
-- ==== Proof.RefValue.lean ====
/-
  The reference's result is the instance Dice score of the volume's joint histogram, when every label is in range.

  The reference flattens the ids into one bin number 26 p + c per voxel and scatter-adds a one per voxel into 1066
  zero bins, then reshapes the bins to 41 x 26. With 0 <= p <= 40 and 0 <= c <= 25 the bin number is never negative
  (so the wrap of negative indices does not act), lies below 1066, and determines p and c; so bin 26 p + c ends at the
  number of voxels carrying both ids.
-/
import proofs.«424809_j90821378441236_2_alg».proof.Proof.RefRead
import proofs.«424809_j90821378441236_2_alg».proof.Proof.Histogram
import proofs.«424809_j90821378441236_2_alg».proof.Proof.LibScatterVec
import Idealize.ShloMosaic.Lib.Pipeline.Value
import Idealize.ShloMosaic.Lib.ValueIdx
import Idealize.ShloMosaic.PureOps.Ideal.Laws

noncomputable section

open scoped BigOperators

namespace Cert.ReferenceIdeal.HistValue

open Cert.ReferenceIdeal Cert.ReferenceIdeal.Gen Cert.Histogram Idealize.ShloMosaic Idealize.ShloMosaic.ValueIdx

/-! ## From the table to the score -/

/-- The reference's result is the score of its 41 x 26 table: after the table both spell the same operations. -/
theorem tail_eq (a0 : FVec Ideal HVol .f32) (a1 : IVec HVol 32) :
    Cert.ReferenceIdeal.PRead.val_main_v51 (F := Ideal) a0 a1
      = diceTail (Cert.ReferenceIdeal.PRead.val_main_v15 (F := Ideal) a0 a1) := by
  unfold diceTail
  rfl

/-! ## The bin number of a voxel -/

/-- The start index of update `v` is the bin number of voxel `v`: 26 times its predicted id plus its ground-truth
    id, with 1066 added when that is negative. The flattened volume at `v` is the volume at voxel `v`. -/
theorem start_eq (a0 : FVec Ideal HVol .f32) (a1 : IVec HVol 32) (v : Fin 16777216) :
    PRead.val_main_v12 (F := Ideal) a0 a1 (ix2 v (0 : Fin 1))
      = Scalar.select (IntOp.cmpi .slt (IntOp.addi (IntOp.muli (labelWord a0 v) 26#32) (gtWord a1 v)) 0#32)
          (IntOp.addi (IntOp.addi (IntOp.muli (labelWord a0 v) 26#32) (gtWord a1 v)) 1066#32)
          (IntOp.addi (IntOp.muli (labelWord a0 v) 26#32) (gtWord a1 v)) := by
  have h12 : PRead.idx_main_v12 (ix2 v (0 : Fin 1)) = ix1 v := by
    funext a; match a with | ⟨0, _⟩ => rfl
  have h5 : PRead.idx_main_v5 (ix1 v) = voxel v := by
    funext a; match a with | ⟨0, _⟩ => rfl | ⟨1, _⟩ => rfl | ⟨2, _⟩ => rfl
  rw [PRead.val_main_v12_apply, h12, PRead.val_main_v11_apply, PRead.val_main_v8_apply, PRead.val_main_v10_apply,
    PRead.val_main_v5_apply, h5, PRead.val_main_v4_apply, PRead.val_main_v3_apply, PRead.val_main_v2_apply,
    PRead.val_main_c_apply, PRead.val_main_v7_apply, PRead.val_main_c_0_apply, PRead.val_main_v9_apply,
    PRead.val_main_c_1_apply]
  rfl

/-- With ids `L` in 0 … 40 and `G` in 0 … 25 the bin number 26 L + G does not wrap and is not negative, so it is
    kept as it is: read signed it is 26 L + G over the integers. -/
theorem word_bin (L G : BitVec 32) (hL0 : 0 ≤ L.toInt) (hL : L.toInt ≤ 40) (hG0 : 0 ≤ G.toInt) (hG : G.toInt ≤ 25) :
    (Scalar.select (IntOp.cmpi .slt (IntOp.addi (IntOp.muli L 26#32) G) 0#32)
        (IntOp.addi (IntOp.addi (IntOp.muli L 26#32) G) 1066#32) (IntOp.addi (IntOp.muli L 26#32) G)).toInt
      = 26 * L.toInt + G.toInt := by
  have hLn : L.toNat ≤ 40 ∧ L.toInt = (L.toNat : Int) := by
    rw [BitVec.toInt_eq_toNat_cond] at hL0 hL ⊢; have := L.isLt; split_ifs at hL0 hL ⊢ <;> omega
  have hGn : G.toNat ≤ 25 ∧ G.toInt = (G.toNat : Int) := by
    rw [BitVec.toInt_eq_toNat_cond] at hG0 hG ⊢; have := G.isLt; split_ifs at hG0 hG ⊢ <;> omega
  have hw : (IntOp.addi (IntOp.muli L 26#32) G).toNat = 26 * L.toNat + G.toNat := by
    simp only [IntOp.addi, IntOp.muli, BitVec.toNat_add, BitVec.toNat_mul, BitVec.toNat_ofNat]
    omega
  have hwi : (IntOp.addi (IntOp.muli L 26#32) G).toInt = 26 * L.toInt + G.toInt := by
    rw [BitVec.toInt_eq_toNat_cond, hw, hLn.2, hGn.2]; split_ifs <;> omega
  have hs : IntOp.cmpi .slt (IntOp.addi (IntOp.muli L 26#32) G) 0#32 = 0#1 := by
    have h0 : (0#32 : BitVec 32).toInt = 0 := by decide
    have hn : ¬ (26 * L.toInt + G.toInt < 0) := by omega
    simp only [IntOp.cmpi, BitVec.slt, hwi, h0, hn, decide_false, BitVec.ofBool_false]
    rfl
  rw [hs, select_zero, hwi]

/-- A word that is not negative read signed is `n` (below 2^31) exactly when it is the word of `n`. -/
theorem toInt_eq_iff (w : BitVec 32) (n : ℕ) (hw0 : 0 ≤ w.toInt) (hn : n < 2147483648) :
    w.toInt = (n : Int) ↔ w = BitVec.ofNat 32 n := by
  constructor
  · intro h
    apply BitVec.eq_of_toNat_eq
    rw [BitVec.toNat_ofNat]
    rw [BitVec.toInt_eq_toNat_cond] at h hw0
    have := w.isLt
    split_ifs at h hw0 <;> omega
  · intro h
    subst h
    rw [BitVec.toInt_eq_toNat_cond, BitVec.toNat_ofNat]
    split_ifs <;> omega

/-- With both ids in range the bin number determines them: it is 26 p + c exactly for ids p and c. -/
theorem bin_iff (L G : BitVec 32) (hL0 : 0 ≤ L.toInt) (hL : L.toInt ≤ 40) (hG0 : 0 ≤ G.toInt) (hG : G.toInt ≤ 25)
    (p : Fin 41) (c : Fin 26) :
    26 * L.toInt + G.toInt = ((26 * p.val + c.val : ℕ) : Int)
      ↔ (L = BitVec.ofNat 32 p.val ∧ G = BitVec.ofNat 32 c.val) := by
  have hp := p.isLt
  have hc := c.isLt
  rw [← toInt_eq_iff L p.val hL0 (by omega), ← toInt_eq_iff G c.val hG0 (by omega)]
  constructor
  · intro h; constructor <;> omega
  · rintro ⟨h1, h2⟩; omega

/-- The update every voxel adds is one. -/
theorem one_f32 : Ideal.ofBits .f32 0x3F800000#32 = 1 := by
  simp [Ideal.ofBits, Ideal.ieee, -EReal.coe_mul]; norm_num

/-! ## The table -/

/-- Entry (p, c) of the reference's table is bin 26 p + c of the scatter-add: zero plus a one for every voxel whose
    bin number is 26 p + c, that is, for every voxel carrying ids p and c. -/
theorem table_at (a0 : FVec Ideal HVol .f32) (a1 : IVec HVol 32) (hb : InRange a0 a1) (p : Fin 41) (c : Fin 26) :
    PRead.val_main_v15 (F := Ideal) a0 a1 (ix2 p c) = counts (labelWord a0) (gtWord a1) (ix2 p c) := by
  have hbin : 26 * p.val + c.val < 1066 := by have := p.isLt; have := c.isLt; omega
  have h15 : PRead.idx_main_v15 (ix2 p c) = ix1 (⟨26 * p.val + c.val, hbin⟩ : Fin 1066) := by
    funext a
    match a with
    | ⟨0, _⟩ => exact Fin.ext (by show p.val * 26 + c.val = 26 * p.val + c.val; omega)
  rw [PRead.val_main_v15_apply, h15]
  unfold PRead.val_main_v14
  rw [Cert.ScatterVec.scatter_vec_apply _ rfl rfl rfl rfl]
  rw [PRead.val_main_v6_apply, PRead.val_main_cst_apply, Ideal.ofBits_def, Ideal.ofBits_zero_f32, zero_add,
    Finset.sum_filter]
  unfold counts
  show _ = ∑ v : Fin 16777216, hit (labelWord a0) (gtWord a1) p.val c.val v
  refine Finset.sum_congr rfl fun v _ => ?_
  have hv := hb v
  have hiff := bin_iff (labelWord a0 v) (gtWord a1 v) hv.1.1 hv.1.2 hv.2.1 hv.2.2 p c
  rw [PRead.val_main_v13_apply, PRead.val_main_cst_2_apply, Ideal.ofBits_def, one_f32, start_eq,
    word_bin _ _ hv.1.1 hv.1.2 hv.2.1 hv.2.2]
  show (if 26 * (labelWord a0 v).toInt + (gtWord a1 v).toInt = ((26 * p.val + c.val : ℕ) : Int) then (1 : EReal) else 0)
    = ind (labelWord a0 v) p.val * ind (gtWord a1 v) c.val
  unfold ind
  by_cases h1 : labelWord a0 v = BitVec.ofNat 32 p.val
  · by_cases h2 : gtWord a1 v = BitVec.ofNat 32 c.val
    · rw [if_pos (hiff.2 ⟨h1, h2⟩), if_pos h1, if_pos h2, mul_one]
    · rw [if_neg (fun h => h2 (hiff.1 h).2), if_pos h1, if_neg h2, mul_zero]
  · rw [if_neg (fun h => h1 (hiff.1 h).1), if_neg h1, zero_mul]

/-- With every label in range the reference's 41 x 26 table is the joint histogram. -/
theorem table_eq (a0 : FVec Ideal HVol .f32) (a1 : IVec HVol 32) (hb : InRange a0 a1) :
    PRead.val_main_v15 (F := Ideal) a0 a1 = counts (labelWord a0) (gtWord a1) := by
  funext i
  rw [eq_ix2 i]
  exact table_at a0 a1 hb (i 0) (i 1)

/-! ## The result -/

/-- With every label in range the reference's result is the score of the joint histogram. -/
theorem result_eq (a0 : FVec Ideal HVol .f32) (a1 : IVec HVol 32) (hb : InRange a0 a1) :
    Cert.ReferenceIdeal.PRead.val_main_v51 (F := Ideal) a0 a1 = diceTail (counts (labelWord a0) (gtWord a1)) := by
  rw [tail_eq, table_eq a0 a1 hb]

end Cert.ReferenceIdeal.HistValue

end
-- ==== Proof.PreRange.lean ====
/-
  The precondition read: every prediction is finite, every rounded prediction is an id in 0 … 40 and every ground-truth
  label an id in 0 … 25. The last two conjuncts, read voxel by voxel, are the range fact the histograms need.
-/
import proofs.«424809_j90821378441236_2_alg».proof.Pre_finite_inputs
import proofs.«424809_j90821378441236_2_alg».proof.Proof.Gen.Pre_finite_inputs
import proofs.«424809_j90821378441236_2_alg».proof.Proof.Histogram
import Idealize.ShloMosaic.Lib.ReduceAll
import Idealize.ShloMosaic.Lib.StableHlo.Predicate
import Idealize.ShloMosaic.Lib.Pipeline.Value
import Idealize.ShloMosaic.Lib.ValueIdx

noncomputable section

namespace Cert.Pre_finite_inputs.Range

open Cert.Pre_finite_inputs Cert.Pre_finite_inputs.Gen Cert.Histogram Idealize.ShloMosaic Idealize.ShloMosaic.ValueIdx

/-- The scalar shape has one index. -/
instance subsingleton_scalar : Subsingleton S_.Idx := ⟨fun a b => funext fun d => d.elim0⟩

/-- A scalar word broadcast over the volume reads that word at every voxel. -/
theorem bcast_word (c : BitVec 32) (i : S256x256x256.Idx) :
    broadcastInDim S256x256x256 ![] Facts.bcast_S_S256x256x256 (constantI S_ 32 c) i = c := rfl

/-- A word compared with two broadcast bounds, both compares true at a voxel: the word, read signed, lies between them. -/
theorem between_of_andi (x : IVec S256x256x256 32) (lo hi : BitVec 32) (i : S256x256x256.Idx)
    (e : andi (cmpi .sge x (broadcastInDim S256x256x256 ![] Facts.bcast_S_S256x256x256 (constantI S_ 32 lo)))
      (cmpi .sle x (broadcastInDim S256x256x256 ![] Facts.bcast_S_S256x256x256 (constantI S_ 32 hi))) i = 1#1) :
    lo.toInt ≤ (x i).toInt ∧ (x i).toInt ≤ hi.toInt := by
  obtain ⟨e0, e1⟩ := IntOp.andi_eq_one.1 e
  have b0 := IntOp.cmpi_sge.1 e0
  have b1 := IntOp.cmpi_sle.1 e1
  rw [bcast_word] at b0 b1
  exact ⟨b0, b1⟩

/-- Where the precondition holds every label is in range. -/
theorem inRange_of_pre (a0 : FVec Ideal HVol .f32) (a1 : IVec HVol 32)
    (h : Cert.Pre_finite_inputs.fn (F := Ideal) a0 a1 = fun _ => 1#1) : InRange a0 a1 := by
  have h0 := congrFun h ValueIdx.ix0
  unfold Cert.Pre_finite_inputs.fn Cert.Pre_finite_inputs.fn_part1 at h0
  dsimp only at h0
  obtain ⟨h12, h18⟩ := IntOp.andi_eq_one.1 h0
  obtain ⟨-, h11⟩ := IntOp.andi_eq_one.1 h12
  intro v
  have hl := between_of_andi _ _ _ (voxel v) (Host.reduce_andi_all _ _ _ _ _ h11 (voxel v))
  have hg := between_of_andi _ _ _ (voxel v) (Host.reduce_andi_all _ _ _ _ _ h18 (voxel v))
  have z0 : (0#32 : BitVec 32).toInt = 0 := by decide
  have z40 : (40#32 : BitVec 32).toInt = 40 := by decide
  have z25 : (25#32 : BitVec 32).toInt = 25 := by decide
  rw [z0, z40] at hl
  rw [z0, z25] at hg
  exact ⟨hl, hg⟩

end Cert.Pre_finite_inputs.Range

end
-- ==== Proof.lean ====
/-
  A joint (predicted id x ground-truth id) voxel histogram and the instance Dice score computed from it: a kernel that
  builds the histogram on the matrix unit, block after block of the volume, against a reference that scatter-adds one
  per voxel into the bin 26 p + c.

  Both programs end with the same operations on the 41 x 26 table (component sizes, overlaps, the Dice quotient, the
  counts of components and of stray predicted ids, the final quotient), so the claim is that the two tables are equal.
  The kernel's table at (p, c) is a sum over the voxels of the product of two indicators, the voxels taken in 64 blocks
  of 262144, 32 blocks into each of two half tables that the host then adds; the reference's bin 26 p + c is the number
  of voxels whose flattened id lands there. Over the extended reals sums of zeros and ones may be regrouped freely, so
  the kernel's table is the plain count; and where every rounded prediction is an id in 0 … 40 and every ground-truth
  label an id in 0 … 25 (the precondition) the flattened id 26 p + c is in range, is never wrapped as a negative index,
  and determines p and c, so the reference's bins are the same counts. Finiteness of the predictions is not used.

  The three frames: the two kernel programs by their frame certificates; the reference by its run. The ideal pass
  rewrote nothing, so the kernel's idealization is the kernel's own text read at the extended reals.
-/
import proofs.«424809_j90821378441236_2_alg».proof.Defs
import proofs.«424809_j90821378441236_2_alg».proof.Proof.Gen.Kernel
import proofs.«424809_j90821378441236_2_alg».proof.Proof.Gen.Kernel.Frame
import proofs.«424809_j90821378441236_2_alg».proof.Proof.Gen.KernelIdeal
import proofs.«424809_j90821378441236_2_alg».proof.Proof.Gen.KernelIdeal.Frame
import proofs.«424809_j90821378441236_2_alg».proof.Proof.Gen.ReferenceIdeal
import proofs.«424809_j90821378441236_2_alg».proof.Proof.Gen.Pre_finite_inputs
import proofs.«424809_j90821378441236_2_alg».proof.Proof.RefRead
import proofs.«424809_j90821378441236_2_alg».proof.Proof.KernelRun
import proofs.«424809_j90821378441236_2_alg».proof.Proof.RefValue
import proofs.«424809_j90821378441236_2_alg».proof.Proof.PreRange
import Idealize.ShloMosaic.Adequacy
import Idealize.ShloMosaic.Init

noncomputable section

namespace Cert.Proof

open Idealize.ShloMosaic Idealize.SL.Sem Cert.Histogram

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.PValue.run (F := Ideal) m ρ)

theorem preserves : Cert.preserves_Kernel_KernelIdeal := trivial

/-- Both programs end at the score of the volume's joint histogram: the kernel always, the reference where every label
    is in range, which the precondition says. -/
theorem algebraic : Cert.algebraic_KernelIdeal_ReferenceIdeal := by
  intro m ρ m' ρ' hpre hagree
  refine ⟨fun c => diceTail (counts
      (labelWord (m ((c.tc : Thread Cert.KernelIdeal.nD Cert.KernelIdeal.τ).loc Cert.KernelIdeal.main_arg0)))
      (gtWord (m ((c.tc : Thread Cert.KernelIdeal.nD Cert.KernelIdeal.τ).loc Cert.KernelIdeal.main_arg1)))),
    Cert.KernelIdeal.HistRun.run m ρ, ?_⟩
  refine (θ_run Cert.ReferenceIdeal.defs _ _).mono (fun _ h c => ⟨(h c).1.trans ?_, (h c).2⟩)
    (Cert.ReferenceIdeal.PValue.run (F := Ideal) m' ρ')
  rw [Cert.ReferenceIdeal.PRead.val_main_v51_eq, (hagree c).1, (hagree c).2]
  exact Cert.ReferenceIdeal.HistValue.result_eq _ _ (Cert.Pre_finite_inputs.Range.inRange_of_pre _ _ (hpre c))

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
